-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x31 : Shape := ⟨2, ![524288, 31]⟩
abbrev S524288x25 : Shape := ⟨2, ![524288, 25]⟩
abbrev S524288x56 : Shape := ⟨2, ![524288, 56]⟩
abbrev S100x56 : Shape := ⟨2, ![100, 56]⟩
abbrev S100 : Shape := ⟨1, ![100]⟩
abbrev S124x56 : Shape := ⟨2, ![124, 56]⟩
abbrev S124 : Shape := ⟨1, ![124]⟩
abbrev S_ : Shape := ⟨0, ![]⟩

class Facts : Prop where
  bcast_S_S524288x31 : S_.BroadcastsInDim S524288x31 (![] : Fin 0 → Fin S524288x31.rank)
  reducesTo_S524288x31_S_d0_1 : S524288x31.ReducesTo [0, 1] S_
  h_S_ : 0 < S_.numel
  bcast_S_S524288x25 : S_.BroadcastsInDim S524288x25 (![] : Fin 0 → Fin S524288x25.rank)
  reducesTo_S524288x25_S_d0_1 : S524288x25.ReducesTo [0, 1] S_
  bcast_S_S524288x56 : S_.BroadcastsInDim S524288x56 (![] : Fin 0 → Fin S524288x56.rank)
  reducesTo_S524288x56_S_d0_1 : S524288x56.ReducesTo [0, 1] S_
  bcast_S_S100x56 : S_.BroadcastsInDim S100x56 (![] : Fin 0 → Fin S100x56.rank)
  reducesTo_S100x56_S_d0_1 : S100x56.ReducesTo [0, 1] S_
  bcast_S_S100 : S_.BroadcastsInDim S100 (![] : Fin 0 → Fin S100.rank)
  reducesTo_S100_S_d0 : S100.ReducesTo [0] S_
  bcast_S_S124x56 : S_.BroadcastsInDim S124x56 (![] : Fin 0 → Fin S124x56.rank)
  reducesTo_S124x56_S_d0_1 : S124x56.ReducesTo [0, 1] S_
  bcast_S_S124 : S_.BroadcastsInDim S124 (![] : Fin 0 → Fin S124.rank)
  reducesTo_S124_S_d0 : S124.ReducesTo [0] S_

variable [Facts]

def fn_part2 {F : FTy → Type} [FloatOps F] (main_arg7 : FVec F S124 .f32) (main_v33 : IVec S_ 1) : IVec S_ 1 :=
  let main_v34 : FVec F S124 .f32 := Host.absf main_arg7
  let main_cst_12 : FVec F S_ .f32 := constant S_ .f32 0x7F800000#32
  let main_v35 : FVec F S124 .f32 := broadcastInDim S124 ![] bcast_S_S124 main_cst_12
  let main_v36 : IVec S124 1 := cmpf .olt main_v34 main_v35
  let main_c_13 : IVec S_ 1 := constantI S_ 1 1#1
  let main_v37 : IVec S_ 1 := (fun x v => Host.reduce IntOp.andi x v reducesTo_S124_S_d0 h_S_) main_v36 main_c_13
  let main_v38 : IVec S_ 1 := andi main_v33 main_v37
  main_v38

def fn_part1 {F : FTy → Type} [FloatOps F] (main_arg4 : FVec F S100x56 .f32) (main_arg5 : FVec F S100 .f32) (main_arg6 : FVec F S124x56 .f32) (main_arg7 : FVec F S124 .f32) (main_v13 : IVec S_ 1) (main_v16 : IVec S524288x56 1) : IVec S_ 1 :=
  let main_c_5 : IVec S_ 1 := constantI S_ 1 1#1
  let main_v17 : IVec S_ 1 := (fun x v => Host.reduce IntOp.andi x v reducesTo_S524288x56_S_d0_1 h_S_) main_v16 main_c_5
  let main_v18 : IVec S_ 1 := andi main_v13 main_v17
  let main_v19 : FVec F S100x56 .f32 := Host.absf main_arg4
  let main_cst_6 : FVec F S_ .f32 := constant S_ .f32 0x7F800000#32
  let main_v20 : FVec F S100x56 .f32 := broadcastInDim S100x56 ![] bcast_S_S100x56 main_cst_6
  let main_v21 : IVec S100x56 1 := cmpf .olt main_v19 main_v20
  let main_c_7 : IVec S_ 1 := constantI S_ 1 1#1
  let main_v22 : IVec S_ 1 := (fun x v => Host.reduce IntOp.andi x v reducesTo_S100x56_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S124x56 .f32 := Host.absf main_arg6
  let main_cst_10 : FVec F S_ .f32 := constant S_ .f32 0x7F800000#32
  let main_v30 : FVec F S124x56 .f32 := broadcastInDim S124x56 ![] bcast_S_S124x56 main_cst_10
  let main_v31 : IVec S124x56 1 := cmpf .olt main_v29 main_v30
  let main_c_11 : IVec S_ 1 := constantI S_ 1 1#1
  let main_v32 : IVec S_ 1 := (fun x v => Host.reduce IntOp.andi x v reducesTo_S124x56_S_d0_1 h_S_) main_v31 main_c_11
  let main_v33 : IVec S_ 1 := andi main_v28 main_v32
  fn_part2 (F := F) main_arg7 main_v33

def fn {F : FTy → Type} [FloatOps F] (main_arg0 : FVec F S524288x31 .f32) (main_arg1 : FVec F S524288x31 .f32) (main_arg2 : FVec F S524288x25 .f32) (main_arg3 : FVec F S524288x56 .f32) (main_arg4 : FVec F S100x56 .f32) (main_arg5 : FVec F S100 .f32) (main_arg6 : FVec F S124x56 .f32) (main_arg7 : FVec F S124 .f32) : IVec S_ 1 :=
  let main_v0 : FVec F S524288x31 .f32 := Host.absf main_arg0
  let main_cst : FVec F S_ .f32 := constant S_ .f32 0x7F800000#32
  let main_v1 : FVec F S524288x31 .f32 := broadcastInDim S524288x31 ![] bcast_S_S524288x31 main_cst
  let main_v2 : IVec S524288x31 1 := cmpf .olt main_v0 main_v1
  let main_c : IVec S_ 1 := constantI S_ 1 1#1
  let main_v3 : IVec S_ 1 := (fun x v => Host.reduce IntOp.andi x v reducesTo_S524288x31_S_d0_1 h_S_) main_v2 main_c
  let main_v4 : FVec F S524288x31 .f32 := Host.absf main_arg1
  let main_cst_0 : FVec F S_ .f32 := constant S_ .f32 0x7F800000#32
  let main_v5 : FVec F S524288x31 .f32 := broadcastInDim S524288x31 ![] bcast_S_S524288x31 main_cst_0
  let main_v6 : IVec S524288x31 1 := cmpf .olt main_v4 main_v5
  let main_c_1 : IVec S_ 1 := constantI S_ 1 1#1
  let main_v7 : IVec S_ 1 := (fun x v => Host.reduce IntOp.andi x v reducesTo_S524288x31_S_d0_1 h_S_) main_v6 main_c_1
  let main_v8 : IVec S_ 1 := andi main_v3 main_v7
  let main_v9 : FVec F S524288x25 .f32 := Host.absf main_arg2
  let main_cst_2 : FVec F S_ .f32 := constant S_ .f32 0x7F800000#32
  let main_v10 : FVec F S524288x25 .f32 := broadcastInDim S524288x25 ![] bcast_S_S524288x25 main_cst_2
  let main_v11 : IVec S524288x25 1 := cmpf .olt main_v9 main_v10
  let main_c_3 : IVec S_ 1 := constantI S_ 1 1#1
  let main_v12 : IVec S_ 1 := (fun x v => Host.reduce IntOp.andi x v reducesTo_S524288x25_S_d0_1 h_S_) main_v11 main_c_3
  let main_v13 : IVec S_ 1 := andi main_v8 main_v12
  let main_v14 : FVec F S524288x56 .f32 := Host.absf main_arg3
  let main_cst_4 : FVec F S_ .f32 := constant S_ .f32 0x7F800000#32
  let main_v15 : FVec F S524288x56 .f32 := broadcastInDim S524288x56 ![] bcast_S_S524288x56 main_cst_4
  let main_v16 : IVec S524288x56 1 := cmpf .olt main_v14 main_v15
  fn_part1 (F := F) main_arg4 main_arg5 main_arg6 main_arg7 main_v13 main_v16
-- ==== Kernel.lean ====
abbrev S524288x31 : Shape := ⟨2, ![524288, 31]⟩
abbrev S524288x25 : Shape := ⟨2, ![524288, 25]⟩
abbrev S524288x56 : Shape := ⟨2, ![524288, 56]⟩
abbrev S100x56 : Shape := ⟨2, ![100, 56]⟩
abbrev S100 : Shape := ⟨1, ![100]⟩
abbrev S124x56 : Shape := ⟨2, ![124, 56]⟩
abbrev S124 : Shape := ⟨1, ![124]⟩
abbrev S1x25 : Shape := ⟨2, ![1, 25]⟩
abbrev S1x31 : Shape := ⟨2, ![1, 31]⟩
abbrev S56x100 : Shape := ⟨2, ![56, 100]⟩
abbrev S56x124 : Shape := ⟨2, ![56, 124]⟩
abbrev S1x100 : Shape := ⟨2, ![1, 100]⟩
abbrev S1x124 : Shape := ⟨2, ![1, 124]⟩
abbrev S2048x31 : Shape := ⟨2, ![2048, 31]⟩
abbrev S2048x25 : Shape := ⟨2, ![2048, 25]⟩
abbrev S2048x56 : Shape := ⟨2, ![2048, 56]⟩
abbrev S2048x100 : Shape := ⟨2, ![2048, 100]⟩
abbrev S2048x124 : Shape := ⟨2, ![2048, 124]⟩
abbrev S2048 : Shape := ⟨1, ![2048]⟩
abbrev S2048x1 : Shape := ⟨2, ![2048, 1]⟩

abbrev nBuf : Space → Nat
  | .hbm => 19
  | .vmem => 18
  | .smem => 0
  | _ => 0

abbrev bufTy : (tb : Table) → Fin (tcTables nBuf tb) → BufTy
  | .hbm, ⟨0, _⟩ => ⟨S524288x31, .f32⟩
  | .hbm, ⟨1, _⟩ => ⟨S524288x31, .f32⟩
  | .hbm, ⟨2, _⟩ => ⟨S524288x25, .f32⟩
  | .hbm, ⟨3, _⟩ => ⟨S524288x56, .f32⟩
  | .hbm, ⟨4, _⟩ => ⟨S100x56, .f32⟩
  | .hbm, ⟨5, _⟩ => ⟨S100, .f32⟩
  | .hbm, ⟨6, _⟩ => ⟨S124x56, .f32⟩
  | .hbm, ⟨7, _⟩ => ⟨S124, .f32⟩
  | .hbm, ⟨8, _⟩ => ⟨S1x25, .f32⟩
  | .hbm, ⟨9, _⟩ => ⟨S1x31, .f32⟩
  | .hbm, ⟨10, _⟩ => ⟨S56x100, .f32⟩
  | .hbm, ⟨11, _⟩ => ⟨S56x100, .bf16⟩
  | .hbm, ⟨12, _⟩ => ⟨S56x124, .f32⟩
  | .hbm, ⟨13, _⟩ => ⟨S56x124, .bf16⟩
  | .hbm, ⟨14, _⟩ => ⟨S1x100, .f32⟩
  | .hbm, ⟨15, _⟩ => ⟨S1x124, .f32⟩
  | .hbm, ⟨16, _⟩ => ⟨S524288x31, .f32⟩
  | .hbm, ⟨17, _⟩ => ⟨S524288x25, .f32⟩
  | .hbm, ⟨18, _⟩ => ⟨S524288x56, .f32⟩
  | .local _ .vmem, ⟨0, _⟩ => ⟨S2048x31, .f32⟩
  | .local _ .vmem, ⟨1, _⟩ => ⟨S2048x31, .f32⟩
  | .local _ .vmem, ⟨2, _⟩ => ⟨S2048x31, .f32⟩
  | .local _ .vmem, ⟨3, _⟩ => ⟨S2048x31, .f32⟩
  | .local _ .vmem, ⟨4, _⟩ => ⟨S2048x25, .f32⟩
  | .local _ .vmem, ⟨5, _⟩ => ⟨S2048x25, .f32⟩
  | .local _ .vmem, ⟨6, _⟩ => ⟨S1x25, .f32⟩
  | .local _ .vmem, ⟨7, _⟩ => ⟨S1x31, .f32⟩
  | .local _ .vmem, ⟨8, _⟩ => ⟨S56x100, .bf16⟩
  | .local _ .vmem, ⟨9, _⟩ => ⟨S1x100, .f32⟩
  | .local _ .vmem, ⟨10, _⟩ => ⟨S56x124, .bf16⟩
  | .local _ .vmem, ⟨11, _⟩ => ⟨S1x124, .f32⟩
  | .local _ .vmem, ⟨12, _⟩ => ⟨S2048x31, .f32⟩
  | .local _ .vmem, ⟨13, _⟩ => ⟨S2048x31, .f32⟩
  | .local _ .vmem, ⟨14, _⟩ => ⟨S2048x25, .f32⟩
  | .local _ .vmem, ⟨15, _⟩ => ⟨S2048x25, .f32⟩
  | .local _ .vmem, ⟨16, _⟩ => ⟨S2048x56, .f32⟩
  | .local _ .vmem, ⟨17, _⟩ => ⟨S2048x56, .f32⟩
  | _, _ => ⟨S524288x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x25 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x31 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S56x100 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S56x124 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x124 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x31 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x25 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x56 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S524288x56_S1x25_0_0 : S524288x56.Slices ![0, 0] S1x25
  slices_S524288x56_S1x31_0_25 : S524288x56.Slices ![0, 25] S1x31
  transposes_S100x56_S56x100_1_0 : S100x56.Transposes [1, 0] S56x100
  bitsLt_bf16_f32 : FTy.bits .bf16 < FTy.bits .f32
  transposes_S124x56_S56x124_1_0 : S124x56.Transposes [1, 0] S56x124
  shapeCasts_S100_S1x100 : S100.ShapeCasts S1x100
  shapeCasts_S124_S1x124 : S124.ShapeCasts S1x124
  inb_S2048x31_S2048x31_0_0 : ∀ a, (![0, 0] : Fin 2 → Nat) a + S2048x31.size a ≤ S2048x31.size a
  h_S2048x31 : 0 < S2048x31.numel
  inb_S2048x25_S2048x25_0_0 : ∀ a, (![0, 0] : Fin 2 → Nat) a + S2048x25.size a ≤ S2048x25.size a
  h_S2048x25 : 0 < S2048x25.numel
  concatenates_S2048x31_S2048x25_S2048x56_d1 : Shape.Concatenates [S2048x31, S2048x25] S2048x56 1
  inb_S56x100_S56x100_0_0 : ∀ a, (![0, 0] : Fin 2 → Nat) a + S56x100.size a ≤ S56x100.size a
  h_S56x100 : 0 < S56x100.numel
  shapeCasts_S56x100_S56x100 : S56x100.ShapeCasts S56x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  slices_S2048x100_o0_0_S2048x25 : S2048x100.Slices ![0, 0] S2048x25
  slices_S2048x100_o0_25_S2048x25 : S2048x100.Slices ![0, 25] S2048x25
  slices_S2048x100_o0_50_S2048x25 : S2048x100.Slices ![0, 50] S2048x25
  slices_S2048x100_o0_75_S2048x25 : S2048x100.Slices ![0, 75] S2048x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S2048x25 : S1x25.Broadcasts S2048x25
  concatenates_S2048x25_S2048x31_S2048x56_d1 : Shape.Concatenates [S2048x25, S2048x31] S2048x56 1
  inb_S56x124_S56x124_0_0 : ∀ a, (![0, 0] : Fin 2 → Nat) a + S56x124.size a ≤ S56x124.size a
  h_S56x124 : 0 < S56x124.numel
  shapeCasts_S56x124_S56x124 : S56x124.ShapeCasts S56x124
  inb_S1x124_S1x124_0_0 : ∀ a, (![0, 0] : Fin 2 → Nat) a + S1x124.size a ≤ S1x124.size a
  h_S1x124 : 0 < S1x124.numel
  shapeCasts_S1x124_S1x124 : S1x124.ShapeCasts S1x124
  broadcasts_S1x124_S2048x124 : S1x124.Broadcasts S2048x124
  slices_S2048x124_o0_0_S2048x31 : S2048x124.Slices ![0, 0] S2048x31
  slices_S2048x124_o0_31_S2048x31 : S2048x124.Slices ![0, 31] S2048x31
  slices_S2048x124_o0_62_S2048x31 : S2048x124.Slices ![0, 62] S2048x31
  slices_S2048x124_o0_93_S2048x31 : S2048x124.Slices ![0, 93] S2048x31
  inb_S1x31_S1x31_0_0 : ∀ a, (![0, 0] : Fin 2 → Nat) a + S1x31.size a ≤ S1x31.size a
  h_S1x31 : 0 < S1x31.numel
  shapeCasts_S1x31_S1x31 : S1x31.ShapeCasts S1x31
  broadcasts_S1x31_S2048x31 : S1x31.Broadcasts S2048x31
  reduces_S2048x31_S2048 : S2048x31.Reduces [1] S2048
  shapeCasts_S2048_S2048x1 : S2048.ShapeCasts S2048x1
  broadcasts_S2048x1_S2048x31 : S2048x1.Broadcasts S2048x31
  inb_S2048x56_S2048x56_0_0 : ∀ a, (![0, 0] : Fin 2 → Nat) a + S2048x56.size a ≤ S2048x56.size a
  h_S2048x56 : 0 < S2048x56.numel
  dot_S2048x56_S56x100_S2048x100_1_0_0_1_n_n_wf : DotDims.WF S2048x56 S56x100 S2048x100 [1] [0] [0] [1] [] []
  dot_S2048x56_S56x124_S2048x124_1_0_0_1_n_n_wf : DotDims.WF S2048x56 S56x124 S2048x124 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x31.size a ≤ S524288x31.size a
  hwx0_0 : ∀ i : grid0.Coords, EltTy.bits .f32 = 32 ∨ (Rect.block (s := S524288x31) S2048x31.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x31.size a ≤ S524288x31.size a
  hwx0_1 : ∀ i : grid0.Coords, EltTy.bits .f32 = 32 ∨ (Rect.block (s := S524288x31) S2048x31.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x25.size a ≤ S524288x25.size a
  hwx0_2 : ∀ i : grid0.Coords, EltTy.bits .f32 = 32 ∨ (Rect.block (s := S524288x25) S2048x25.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x25.size a ≤ S1x25.size a
  hwx0_3 : ∀ i : grid0.Coords, EltTy.bits .f32 = 32 ∨ (Rect.block (s := S1x25) S1x25.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x31.size a ≤ S1x31.size a
  hwx0_4 : ∀ i : grid0.Coords, EltTy.bits .f32 = 32 ∨ (Rect.block (s := S1x31) S1x31.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S56x100.size a ≤ S56x100.size a
  hwx0_5 : ∀ i : grid0.Coords, EltTy.bits .bf16 = 32 ∨ (Rect.block (s := S56x100) S56x100.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S56x124.size a ≤ S56x124.size a
  hwx0_7 : ∀ i : grid0.Coords, EltTy.bits .bf16 = 32 ∨ (Rect.block (s := S56x124) S56x124.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x124.size a ≤ S1x124.size a
  hwx0_8 : ∀ i : grid0.Coords, EltTy.bits .f32 = 32 ∨ (Rect.block (s := S1x124) S1x124.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x31.size a ≤ S524288x31.size a
  hwx0_9 : ∀ i : grid0.Coords, EltTy.bits .f32 = 32 ∨ (Rect.block (s := S524288x31) S2048x31.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x25.size a ≤ S524288x25.size a
  hwx0_10 : ∀ i : grid0.Coords, EltTy.bits .f32 = 32 ∨ (Rect.block (s := S524288x25) S2048x25.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x56.size a ≤ S524288x56.size a
  hwx0_11 : ∀ i : grid0.Coords, EltTy.bits .f32 = 32 ∨ (Rect.block (s := S524288x56) S2048x56.size (cc0_transform_11 i) (hinb0_11 i)).WholeWords (EltTy.packing .f32)

variable [Facts₀]

def dot_S2048x56_S56x100_S2048x100_1_0_0_1_n_n : DotDims S2048x56 S56x100 S2048x100 where
  lhsContracting := [1]
  rhsContracting := [0]
  lhsNonContracting := [0]
  rhsNonContracting := [1]
  lhsBatch := []
  rhsBatch := []
  wf := dot_S2048x56_S56x100_S2048x100_1_0_0_1_n_n_wf
def dot_S2048x56_S56x124_S2048x124_1_0_0_1_n_n : DotDims S2048x56 S56x124 S2048x124 where
  lhsContracting := [1]
  rhsContracting := [0]
  lhsNonContracting := [0]
  rhsNonContracting := [1]
  lhsBatch := []
  rhsBatch := []
  wf := dot_S2048x56_S56x124_S2048x124_1_0_0_1_n_n_wf

abbrev win0_0 : Pipeline.Window sig grid0 :=
  Pipeline.Window.ofSpec (Memref.whole main_arg0) S2048x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x31.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x25.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x25.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x31.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S56x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S56x124.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x124.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S2048x31.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S2048x25.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_2) S2048x56.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288x31 : Shape := ⟨2, ![524288, 31]⟩
abbrev S524288x25 : Shape := ⟨2, ![524288, 25]⟩
abbrev S524288x56 : Shape := ⟨2, ![524288, 56]⟩
abbrev S100x56 : Shape := ⟨2, ![100, 56]⟩
abbrev S100 : Shape := ⟨1, ![100]⟩
abbrev S124x56 : Shape := ⟨2, ![124, 56]⟩
abbrev S124 : Shape := ⟨1, ![124]⟩
abbrev S1x25 : Shape := ⟨2, ![1, 25]⟩
abbrev S25 : Shape := ⟨1, ![25]⟩
abbrev S1x31 : Shape := ⟨2, ![1, 31]⟩
abbrev S31 : Shape := ⟨1, ![31]⟩
abbrev S56x100 : Shape := ⟨2, ![56, 100]⟩
abbrev S524288x100 : Shape := ⟨2, ![524288, 100]⟩
abbrev S1x100 : Shape := ⟨2, ![1, 100]⟩
abbrev S_ : Shape := ⟨0, ![]⟩
abbrev S56x124 : Shape := ⟨2, ![56, 124]⟩
abbrev S524288x124 : Shape := ⟨2, ![524288, 124]⟩
abbrev S1x124 : Shape := ⟨2, ![1, 124]⟩
abbrev S524288 : Shape := ⟨1, ![524288]⟩
abbrev S524288x1 : Shape := ⟨2, ![524288, 1]⟩

abbrev nBuf : Space → Nat
  | .hbm => 112
  | .vmem => 0
  | .smem => 0
  | _ => 0

abbrev bufTy : (tb : Table) → Fin (tcTables nBuf tb) → BufTy
  | .hbm, ⟨0, _⟩ => ⟨S524288x31, .f32⟩
  | .hbm, ⟨1, _⟩ => ⟨S524288x31, .f32⟩
  | .hbm, ⟨2, _⟩ => ⟨S524288x25, .f32⟩
  | .hbm, ⟨3, _⟩ => ⟨S524288x56, .f32⟩
  | .hbm, ⟨4, _⟩ => ⟨S100x56, .f32⟩
  | .hbm, ⟨5, _⟩ => ⟨S100, .f32⟩
  | .hbm, ⟨6, _⟩ => ⟨S124x56, .f32⟩
  | .hbm, ⟨7, _⟩ => ⟨S124, .f32⟩
  | .hbm, ⟨8, _⟩ => ⟨S1x25, .f32⟩
  | .hbm, ⟨9, _⟩ => ⟨S25, .f32⟩
  | .hbm, ⟨10, _⟩ => ⟨S1x31, .f32⟩
  | .hbm, ⟨11, _⟩ => ⟨S31, .f32⟩
  | .hbm, ⟨12, _⟩ => ⟨S524288x56, .f32⟩
  | .hbm, ⟨13, _⟩ => ⟨S56x100, .f32⟩
  | .hbm, ⟨14, _⟩ => ⟨S524288x100, .f32⟩
  | .hbm, ⟨15, _⟩ => ⟨S1x100, .f32⟩
  | .hbm, ⟨16, _⟩ => ⟨S524288x100, .f32⟩
  | .hbm, ⟨17, _⟩ => ⟨S524288x100, .f32⟩
  | .hbm, ⟨18, _⟩ => ⟨S524288x25, .f32⟩
  | .hbm, ⟨19, _⟩ => ⟨S524288x25, .f32⟩
  | .hbm, ⟨20, _⟩ => ⟨S524288x25, .f32⟩
  | .hbm, ⟨21, _⟩ => ⟨S524288x25, .f32⟩
  | .hbm, ⟨22, _⟩ => ⟨S524288x25, .f32⟩
  | .hbm, ⟨23, _⟩ => ⟨S524288x25, .f32⟩
  | .hbm, ⟨24, _⟩ => ⟨S_, .f32⟩
  | .hbm, ⟨25, _⟩ => ⟨S524288x25, .f32⟩
  | .hbm, ⟨26, _⟩ => ⟨S524288x25, .f32⟩
  | .hbm, ⟨27, _⟩ => ⟨S_, .f32⟩
  | .hbm, ⟨28, _⟩ => ⟨S524288x25, .f32⟩
  | .hbm, ⟨29, _⟩ => ⟨S524288x25, .f32⟩
  | .hbm, ⟨30, _⟩ => ⟨S524288x25, .f32⟩
  | .hbm, ⟨31, _⟩ => ⟨S524288x25, .f32⟩
  | .hbm, ⟨32, _⟩ => ⟨S_, .f32⟩
  | .hbm, ⟨33, _⟩ => ⟨S524288x25, .f32⟩
  | .hbm, ⟨34, _⟩ => ⟨S524288x25, .f32⟩
  | .hbm, ⟨35, _⟩ => ⟨S_, .f32⟩
  | .hbm, ⟨36, _⟩ => ⟨S524288x25, .f32⟩
  | .hbm, ⟨37, _⟩ => ⟨S524288x25, .f32⟩
  | .hbm, ⟨38, _⟩ => ⟨S524288x25, .f32⟩
  | .hbm, ⟨39, _⟩ => ⟨S524288x25, .f32⟩
  | .hbm, ⟨40, _⟩ => ⟨S524288x25, .f32⟩
  | .hbm, ⟨41, _⟩ => ⟨S_, .f32⟩
  | .hbm, ⟨42, _⟩ => ⟨S524288x25, .f32⟩
  | .hbm, ⟨43, _⟩ => ⟨S524288x25, .f32⟩
  | .hbm, ⟨44, _⟩ => ⟨S_, .f32⟩
  | .hbm, ⟨45, _⟩ => ⟨S524288x25, .f32⟩
  | .hbm, ⟨46, _⟩ => ⟨S524288x25, .f32⟩
  | .hbm, ⟨47, _⟩ => ⟨S1x25, .f32⟩
  | .hbm, ⟨48, _⟩ => ⟨S524288x25, .f32⟩
  | .hbm, ⟨49, _⟩ => ⟨S524288x25, .f32⟩
  | .hbm, ⟨50, _⟩ => ⟨S524288x25, .f32⟩
  | .hbm, ⟨51, _⟩ => ⟨S524288x25, .f32⟩
  | .hbm, ⟨52, _⟩ => ⟨S524288x25, .f32⟩
  | .hbm, ⟨53, _⟩ => ⟨S524288x25, .f32⟩
  | .hbm, ⟨54, _⟩ => ⟨S524288x56, .f32⟩
  | .hbm, ⟨55, _⟩ => ⟨S56x124, .f32⟩
  | .hbm, ⟨56, _⟩ => ⟨S524288x124, .f32⟩
  | .hbm, ⟨57, _⟩ => ⟨S1x124, .f32⟩
  | .hbm, ⟨58, _⟩ => ⟨S524288x124, .f32⟩
  | .hbm, ⟨59, _⟩ => ⟨S524288x124, .f32⟩
  | .hbm, ⟨60, _⟩ => ⟨S524288x31, .f32⟩
  | .hbm, ⟨61, _⟩ => ⟨S524288x31, .f32⟩
  | .hbm, ⟨62, _⟩ => ⟨S524288x31, .f32⟩
  | .hbm, ⟨63, _⟩ => ⟨S524288x31, .f32⟩
  | .hbm, ⟨64, _⟩ => ⟨S524288x31, .f32⟩
  | .hbm, ⟨65, _⟩ => ⟨S524288x31, .f32⟩
  | .hbm, ⟨66, _⟩ => ⟨S_, .f32⟩
  | .hbm, ⟨67, _⟩ => ⟨S524288x31, .f32⟩
  | .hbm, ⟨68, _⟩ => ⟨S524288x31, .f32⟩
  | .hbm, ⟨69, _⟩ => ⟨S_, .f32⟩
  | .hbm, ⟨70, _⟩ => ⟨S524288x31, .f32⟩
  | .hbm, ⟨71, _⟩ => ⟨S524288x31, .f32⟩
  | .hbm, ⟨72, _⟩ => ⟨S524288x31, .f32⟩
  | .hbm, ⟨73, _⟩ => ⟨S524288x31, .f32⟩
  | .hbm, ⟨74, _⟩ => ⟨S_, .f32⟩
  | .hbm, ⟨75, _⟩ => ⟨S524288x31, .f32⟩
  | .hbm, ⟨76, _⟩ => ⟨S524288x31, .f32⟩
  | .hbm, ⟨77, _⟩ => ⟨S_, .f32⟩
  | .hbm, ⟨78, _⟩ => ⟨S524288x31, .f32⟩
  | .hbm, ⟨79, _⟩ => ⟨S524288x31, .f32⟩
  | .hbm, ⟨80, _⟩ => ⟨S524288x31, .f32⟩
  | .hbm, ⟨81, _⟩ => ⟨S524288x31, .f32⟩
  | .hbm, ⟨82, _⟩ => ⟨S524288x31, .f32⟩
  | .hbm, ⟨83, _⟩ => ⟨S_, .f32⟩
  | .hbm, ⟨84, _⟩ => ⟨S524288x31, .f32⟩
  | .hbm, ⟨85, _⟩ => ⟨S524288x31, .f32⟩
  | .hbm, ⟨86, _⟩ => ⟨S_, .f32⟩
  | .hbm, ⟨87, _⟩ => ⟨S524288x31, .f32⟩
  | .hbm, ⟨88, _⟩ => ⟨S524288x31, .f32⟩
  | .hbm, ⟨89, _⟩ => ⟨S1x31, .f32⟩
  | .hbm, ⟨90, _⟩ => ⟨S524288x31, .f32⟩
  | .hbm, ⟨91, _⟩ => ⟨S524288x31, .f32⟩
  | .hbm, ⟨92, _⟩ => ⟨S524288x31, .f32⟩
  | .hbm, ⟨93, _⟩ => ⟨S524288x31, .f32⟩
  | .hbm, ⟨94, _⟩ => ⟨S524288x31, .f32⟩
  | .hbm, ⟨95, _⟩ => ⟨S524288x31, .f32⟩
  | .hbm, ⟨96, _⟩ => ⟨S_, .f32⟩
  | .hbm, ⟨97, _⟩ => ⟨S524288, .f32⟩
  | .hbm, ⟨98, _⟩ => ⟨S_, .f32⟩
  | .hbm, ⟨99, _⟩ => ⟨S524288, .f32⟩
  | .hbm, ⟨100, _⟩ => ⟨S524288, .f32⟩
  | .hbm, ⟨101, _⟩ => ⟨S524288x1, .f32⟩
  | .hbm, ⟨102, _⟩ => ⟨S524288x31, .f32⟩
  | .hbm, ⟨103, _⟩ => ⟨S524288x31, .f32⟩
  | .hbm, ⟨104, _⟩ => ⟨S524288x31, .f32⟩
  | .hbm, ⟨105, _⟩ => ⟨S_, .f32⟩
  | .hbm, ⟨106, _⟩ => ⟨S524288, .f32⟩
  | .hbm, ⟨107, _⟩ => ⟨S524288x1, .f32⟩
  | .hbm, ⟨108, _⟩ => ⟨S524288x1, .f32⟩
  | .hbm, ⟨109, _⟩ => ⟨S524288x31, .f32⟩
  | .hbm, ⟨110, _⟩ => ⟨S524288x31, .f32⟩
  | .hbm, ⟨111, _⟩ => ⟨S524288x56, .f32⟩
  | _, _ => ⟨S524288x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call0_cst : Ref sig .tc := ⟨.hbm, 96, rfl⟩
abbrev main_call0_v0 : Ref sig .tc := ⟨.hbm, 97, rfl⟩
abbrev main_call0_cst_0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_cst_1 : Ref sig .tc := ⟨.hbm, 105, rfl⟩
abbrev main_call0_v7 : Ref sig .tc := ⟨.hbm, 106, rfl⟩
abbrev main_call0_v8 : Ref sig .tc := ⟨.hbm, 107, rfl⟩
abbrev main_call0_v9 : Ref sig .tc := ⟨.hbm, 108, rfl⟩
abbrev main_call0_v10 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]

class Facts₀ : Prop where
  slices_S524288x56_S1x25_0_0 : S524288x56.Slices ![0, 0] S1x25
  shapeCasts_S1x25_S25 : S1x25.ShapeCasts S25
  slices_S524288x56_S1x31_0_25 : S524288x56.Slices ![0, 25] S1x31
  shapeCasts_S1x31_S31 : S1x31.ShapeCasts S31
  concatenates_S524288x31_S524288x25_S524288x56_d1 : Shape.Concatenates [S524288x31, S524288x25] S524288x56 1
  transposes_S100x56_S56x100_1_0 : S100x56.Transposes [1, 0] S56x100
  bcast_S100_S1x100_1 : S100.BroadcastsInDim S1x100 (![1] : Fin 1 → Fin S1x100.rank)
  bcast_S1x100_S524288x100_0_1 : S1x100.BroadcastsInDim S524288x100 (![0, 1] : Fin 2 → Fin S524288x100.rank)
  slices_S524288x100_S524288x25_0_0 : S524288x100.Slices ![0, 0] S524288x25
  slices_S524288x100_S524288x25_0_25 : S524288x100.Slices ![0, 25] S524288x25
  slices_S524288x100_S524288x25_0_50 : S524288x100.Slices ![0, 50] S524288x25
  slices_S524288x100_S524288x25_0_75 : S524288x100.Slices ![0, 75] S524288x25
  bcast_S_S524288x25 : S_.BroadcastsInDim S524288x25 (![] : Fin 0 → Fin S524288x25.rank)
  bcast_S25_S1x25_1 : S25.BroadcastsInDim S1x25 (![1] : Fin 1 → Fin S1x25.rank)
  bcast_S1x25_S524288x25_0_1 : S1x25.BroadcastsInDim S524288x25 (![0, 1] : Fin 2 → Fin S524288x25.rank)
  concatenates_S524288x25_S524288x31_S524288x56_d1 : Shape.Concatenates [S524288x25, S524288x31] S524288x56 1
  transposes_S124x56_S56x124_1_0 : S124x56.Transposes [1, 0] S56x124
  bcast_S124_S1x124_1 : S124.BroadcastsInDim S1x124 (![1] : Fin 1 → Fin S1x124.rank)
  bcast_S1x124_S524288x124_0_1 : S1x124.BroadcastsInDim S524288x124 (![0, 1] : Fin 2 → Fin S524288x124.rank)
  slices_S524288x124_S524288x31_0_0 : S524288x124.Slices ![0, 0] S524288x31
  slices_S524288x124_S524288x31_0_31 : S524288x124.Slices ![0, 31] S524288x31
  slices_S524288x124_S524288x31_0_62 : S524288x124.Slices ![0, 62] S524288x31
  slices_S524288x124_S524288x31_0_93 : S524288x124.Slices ![0, 93] S524288x31
  bcast_S_S524288x31 : S_.BroadcastsInDim S524288x31 (![] : Fin 0 → Fin S524288x31.rank)
  bcast_S31_S1x31_1 : S31.BroadcastsInDim S1x31 (![1] : Fin 1 → Fin S1x31.rank)
  bcast_S1x31_S524288x31_0_1 : S1x31.BroadcastsInDim S524288x31 (![0, 1] : Fin 2 → Fin S524288x31.rank)
  reducesTo_S524288x31_S524288_d1 : S524288x31.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x31_0_1 : S524288x1.BroadcastsInDim S524288x31 (![0, 1] : Fin 2 → Fin S524288x31.rank)
  dot_S524288x56_S56x100_S524288x100_1_0_0_1_n_n_wf : DotDims.WF S524288x56 S56x100 S524288x100 [1] [0] [0] [1] [] []
  dot_S524288x56_S56x124_S524288x124_1_0_0_1_n_n_wf : DotDims.WF S524288x56 S56x124 S524288x124 [1] [0] [0] [1] [] []

variable [Facts₀]

def dot_S524288x56_S56x100_S524288x100_1_0_0_1_n_n : DotDims S524288x56 S56x100 S524288x100 where
  lhsContracting := [1]
  rhsContracting := [0]
  lhsNonContracting := [0]
  rhsNonContracting := [1]
  lhsBatch := []
  rhsBatch := []
  wf := dot_S524288x56_S56x100_S524288x100_1_0_0_1_n_n_wf
def dot_S524288x56_S56x124_S524288x124_1_0_0_1_n_n : DotDims S524288x56 S56x124 S524288x124 where
  lhsContracting := [1]
  rhsContracting := [0]
  lhsNonContracting := [0]
  rhsNonContracting := [1]
  lhsBatch := []
  rhsBatch := []
  wf := dot_S524288x56_S56x124_S524288x124_1_0_0_1_n_n_wf

class Facts : Prop extends Facts₀ where

variable [Facts]
-- ==== Proof.TwoCellSpec.lean ====
/-
  The mathematics both programs compute, stated once and row by row.

  Every result row depends only on the same row of the three batch inputs and on the shared small arrays (the
  state row, the two weight matrices, the two biases). For one row:

    u₁      = the input row (31 entries) followed by the hidden row (25 entries)
    g₁ j    = (∑ k < 56, u₁ k · W₁ j k) + b₁ j                      for the 100 gate pre-activations
    ctx₁ q  = c₁ q · σ(g₁ q) + σ(g₁ (q + 25)) · tanh (g₁ (q + 50))   for q < 25
    hid q   = tanh (ctx₁ q) · σ(g₁ (q + 75))
    u₂      = hid (25 entries) followed by the previous-output row (31 entries)
    g₂ j    = (∑ k < 56, u₂ k · W₂ j k) + b₂ j                      for the 124 gate pre-activations
    ctx₂ q  = c₂ q · σ(g₂ q) + σ(g₂ (q + 31)) · tanh (g₂ (q + 62))   for q < 31
    o q     = tanh (ctx₂ q) · σ(g₂ (q + 93))
    out q   = (o q − max o) − log (∑ k < 31, exp (o k − max o))

  where σ x = 1 / (1 + exp (−x)) on the extended reals, c₁ and c₂ are the first 25 and the last 31 entries of
  row 0 of the state array, and the maximum of a row is the fold of `max` from −∞. The three results are `out`,
  `hid` and the row `ctx₁` followed by `ctx₂`. Nothing here is rearranged between the two programs, so no law
  that would need finite values is used: sums are only ever re-indexed.
-/
import Idealize.ShloMosaic.PureOps.Ideal
import Idealize.ShloMosaic.Lib.ValueIdx

noncomputable section

open scoped BigOperators

namespace Cert.TwoCell

open Idealize.ShloMosaic Idealize.ShloMosaic.ValueIdx

/-! ## One row -/

/-- A row of 31 entries followed by a row of 25. -/
def join31_25 (u : Fin 31 → EReal) (v : Fin 25 → EReal) (k : Fin 56) : EReal :=
  if h : k.val < 31 then u ⟨k.val, h⟩ else v ⟨k.val - 31, by have := k.isLt; omega⟩

/-- A row of 25 entries followed by a row of 31. -/
def join25_31 (u : Fin 25 → EReal) (v : Fin 31 → EReal) (k : Fin 56) : EReal :=
  if h : k.val < 25 then u ⟨k.val, h⟩ else v ⟨k.val - 25, by have := k.isLt; omega⟩

/-- Gate pre-activation `j`: the row against weight row `j`, plus the bias. -/
def pre {n : Nat} (u : Fin 56 → EReal) (W : Fin n → Fin 56 → EReal) (b : Fin n → EReal) (j : Fin n) : EReal :=
  (∑ k : Fin 56, u k * W j k) + b j

/-- The new cell state from the old state entry and the forget, input and candidate pre-activations. -/
def ctxOf (c f i g : EReal) : EReal := c * Ideal.logistic f + Ideal.logistic i * Ideal.tanh g

/-- The cell's output from its new state and the output-gate pre-activation. -/
def outOf (ctx o : EReal) : EReal := Ideal.tanh ctx * Ideal.logistic o

/-- First cell (width 25, gates at offsets 0, 25, 50, 75): the new state. -/
def ctx1 (u : Fin 56 → EReal) (c : Fin 25 → EReal) (W : Fin 100 → Fin 56 → EReal) (b : Fin 100 → EReal) (q : Fin 25) : EReal :=
  ctxOf (c q) (pre u W b ⟨q.val, by have := q.isLt; omega⟩) (pre u W b ⟨q.val + 25, by have := q.isLt; omega⟩)
    (pre u W b ⟨q.val + 50, by have := q.isLt; omega⟩)

/-- First cell: the output (the new hidden row). -/
def hid1 (u : Fin 56 → EReal) (c : Fin 25 → EReal) (W : Fin 100 → Fin 56 → EReal) (b : Fin 100 → EReal) (q : Fin 25) : EReal :=
  outOf (ctx1 u c W b q) (pre u W b ⟨q.val + 75, by have := q.isLt; omega⟩)

/-- Second cell (width 31, gates at offsets 0, 31, 62, 93): the new state. -/
def ctx2 (u : Fin 56 → EReal) (c : Fin 31 → EReal) (W : Fin 124 → Fin 56 → EReal) (b : Fin 124 → EReal) (q : Fin 31) : EReal :=
  ctxOf (c q) (pre u W b ⟨q.val, by have := q.isLt; omega⟩) (pre u W b ⟨q.val + 31, by have := q.isLt; omega⟩)
    (pre u W b ⟨q.val + 62, by have := q.isLt; omega⟩)

/-- Second cell: the output, before the log-softmax. -/
def out2 (u : Fin 56 → EReal) (c : Fin 31 → EReal) (W : Fin 124 → Fin 56 → EReal) (b : Fin 124 → EReal) (q : Fin 31) : EReal :=
  outOf (ctx2 u c W b q) (pre u W b ⟨q.val + 93, by have := q.isLt; omega⟩)

/-- A row's maximum: the fold of `max` from −∞. -/
def rowMax (v : Fin 31 → EReal) : EReal := (Finset.univ : Finset (Fin 31)).fold max ⊥ v

/-- The log-softmax of a row. -/
def logSoftmax (v : Fin 31 → EReal) (q : Fin 31) : EReal :=
  (v q - rowMax v) - Ideal.log (∑ k : Fin 31, Ideal.exp (v k - rowMax v))

/-- The second cell's input row: the first cell's output followed by the previous-output row. -/
def u2 (x : Fin 31 → EReal) (h : Fin 25 → EReal) (o : Fin 31 → EReal) (c1 : Fin 25 → EReal)
    (W1 : Fin 100 → Fin 56 → EReal) (b1 : Fin 100 → EReal) : Fin 56 → EReal :=
  join25_31 (hid1 (join31_25 x h) c1 W1 b1) o

/-- Result 1 of a row: the new hidden row. -/
def hidRow (x : Fin 31 → EReal) (h : Fin 25 → EReal) (c1 : Fin 25 → EReal)
    (W1 : Fin 100 → Fin 56 → EReal) (b1 : Fin 100 → EReal) : Fin 25 → EReal :=
  hid1 (join31_25 x h) c1 W1 b1

/-- Result 0 of a row: the log-softmax of the second cell's output. -/
def outRow (x : Fin 31 → EReal) (h : Fin 25 → EReal) (o : Fin 31 → EReal) (c1 : Fin 25 → EReal) (c2 : Fin 31 → EReal)
    (W1 : Fin 100 → Fin 56 → EReal) (b1 : Fin 100 → EReal) (W2 : Fin 124 → Fin 56 → EReal) (b2 : Fin 124 → EReal) :
    Fin 31 → EReal :=
  logSoftmax (out2 (u2 x h o c1 W1 b1) c2 W2 b2)

/-- Result 2 of a row: the first cell's new state followed by the second cell's. -/
def ctxRow (x : Fin 31 → EReal) (h : Fin 25 → EReal) (o : Fin 31 → EReal) (c1 : Fin 25 → EReal) (c2 : Fin 31 → EReal)
    (W1 : Fin 100 → Fin 56 → EReal) (b1 : Fin 100 → EReal) (W2 : Fin 124 → Fin 56 → EReal) (b2 : Fin 124 → EReal) :
    Fin 56 → EReal :=
  join25_31 (ctx1 (join31_25 x h) c1 W1 b1) (ctx2 (u2 x h o c1 W1 b1) c2 W2 b2)

/-! ## The whole arrays

The batch has 524288 rows. The arrays are indexed as the programs index them: the two weight matrices as
[gate, input], the biases by gate, the state array by [row, entry] of which only row 0 is read. -/

abbrev SBx31 : Shape := ⟨2, ![524288, 31]⟩
abbrev SBx25 : Shape := ⟨2, ![524288, 25]⟩
abbrev SBx56 : Shape := ⟨2, ![524288, 56]⟩
abbrev SW1 : Shape := ⟨2, ![100, 56]⟩
abbrev SW2 : Shape := ⟨2, ![124, 56]⟩
abbrev Sb1 : Shape := ⟨1, ![100]⟩
abbrev Sb2 : Shape := ⟨1, ![124]⟩

/-- Row `r` of an array of 524288 rows. -/
abbrev rowOf {n : Nat} (X : (⟨2, ![524288, n]⟩ : Shape).Idx → EReal) (r : Fin 524288) : Fin n → EReal := fun k => X (ix2 r k)

/-- The first cell's old state: entries 0 … 24 of row 0 of the state array. -/
def c1Of (C : SBx56.Idx → EReal) : Fin 25 → EReal :=
  fun q => C (ix2 (⟨0, by decide⟩ : Fin 524288) (⟨q.val, by have := q.isLt; omega⟩ : Fin 56))

/-- The second cell's old state: entries 25 … 55 of row 0 of the state array. -/
def c2Of (C : SBx56.Idx → EReal) : Fin 31 → EReal :=
  fun q => C (ix2 (⟨0, by decide⟩ : Fin 524288) (⟨q.val + 25, by have := q.isLt; omega⟩ : Fin 56))

/-- A weight matrix as a function of gate and input. -/
abbrev matOf {n : Nat} (W : (⟨2, ![n, 56]⟩ : Shape).Idx → EReal) : Fin n → Fin 56 → EReal := fun j k => W (ix2 j k)

/-- A bias vector as a function of the gate. -/
abbrev vecOf {n : Nat} (b : (⟨1, ![n]⟩ : Shape).Idx → EReal) : Fin n → EReal := fun j => b (ix1 j)

/-- Result 0, the log-softmax output, as one function of the argument arrays. -/
def outArr (X O : SBx31.Idx → EReal) (H : SBx25.Idx → EReal) (C : SBx56.Idx → EReal) (W1 : SW1.Idx → EReal)
    (B1 : Sb1.Idx → EReal) (W2 : SW2.Idx → EReal) (B2 : Sb2.Idx → EReal) : SBx31.Idx → EReal :=
  fun i => outRow (rowOf X (i 0)) (rowOf H (i 0)) (rowOf O (i 0)) (c1Of C) (c2Of C) (matOf W1) (vecOf B1) (matOf W2) (vecOf B2) (i 1)

/-- Result 1, the new hidden array. -/
def hidArr (X : SBx31.Idx → EReal) (H : SBx25.Idx → EReal) (C : SBx56.Idx → EReal) (W1 : SW1.Idx → EReal)
    (B1 : Sb1.Idx → EReal) : SBx25.Idx → EReal :=
  fun i => hidRow (rowOf X (i 0)) (rowOf H (i 0)) (c1Of C) (matOf W1) (vecOf B1) (i 1)

/-- Result 2, the two new cell states side by side. -/
def ctxArr (X O : SBx31.Idx → EReal) (H : SBx25.Idx → EReal) (C : SBx56.Idx → EReal) (W1 : SW1.Idx → EReal)
    (B1 : Sb1.Idx → EReal) (W2 : SW2.Idx → EReal) (B2 : Sb2.Idx → EReal) : SBx56.Idx → EReal :=
  fun i => ctxRow (rowOf X (i 0)) (rowOf H (i 0)) (rowOf O (i 0)) (c1Of C) (c2Of C) (matOf W1) (vecOf B1) (matOf W2) (vecOf B2) (i 1)

end Cert.TwoCell

end
-- ==== Proof.KernelRows.lean ====
/-
  The kernel body's three stored values, read at a block index (p, q).

  The body loads a block of 2048 rows of each batch input together with the whole state rows, weights and
  biases, and stores three blocks. Every operation in between acts row by row: the two side-by-side joins, the
  two matrix products (at an entry, the sum over the 56 inputs of row p times the weight column), the bias
  broadcasts, the column slices that pick the four gates, the pointwise gate functions, and the row maximum and
  row sum of the log-softmax. So each stored entry (p, q) is the corresponding row function of TwoCellSpec
  applied to row p of the loaded blocks: `hid_at`, `out_at`, `ctx_at`. The weights arrive transposed
  ([input, gate]); `tmat` reads them back as [gate, input]. A change of float format is the identity on the
  extended reals, so the narrowing before each product disappears.
-/
import proofs.«137660_j37933151158488_1_alg».proof.Proof.Gen.KernelIdeal.Skeleton
import proofs.«137660_j37933151158488_1_alg».proof.Proof.TwoCellSpec
import Idealize.ShloMosaic.Lib.ValueIdx
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert.TwoCell

/-- Row `p` of a block of 2048 rows. -/
abbrev brow {n : Nat} (X : (⟨2, ![2048, n]⟩ : Shape).Idx → EReal) (p : Fin 2048) : Fin n → EReal := fun k => X (ix2 p k)

/-- The one row of a one-row block. -/
abbrev row0 {n : Nat} (X : (⟨2, ![1, n]⟩ : Shape).Idx → EReal) : Fin n → EReal := fun k => X (ix2 (0 : Fin 1) k)

/-- A transposed weight block [input, gate] as a function of gate and input. -/
abbrev tmat {n : Nat} (W : (⟨2, ![56, n]⟩ : Shape).Idx → EReal) : Fin n → Fin 56 → EReal := fun j k => W (ix2 k j)

/-! ## Two blocks side by side, read at an index -/

/-- A 31-column block followed by a 25-column block: entry (p, k) comes from the first below column 31, else from the second. -/
theorem cat_31_25_at (a : Vec Ideal S2048x31 .f32) (b : Vec Ideal S2048x25 .f32) (p : Fin 2048) (k : Fin 56) :
    concatenate S2048x56 1 [⟨S2048x31, a⟩, ⟨S2048x25, b⟩] concatenates_S2048x31_S2048x25_S2048x56_d1 (ix2 p k)
      = join31_25 (brow a p) (brow b p) k := by
  unfold join31_25
  by_cases hk : k.val < 31
  · rw [dif_pos hk]
    exact concatenate_pair_apply_left (1 : Fin 2) a b _ (ix2 p k) rfl (ix2 p (⟨k.val, hk⟩ : Fin 31))
      (fun c => match c with | ⟨0, _⟩ => rfl | ⟨1, _⟩ => rfl)
  · rw [dif_neg hk]
    exact concatenate_pair_apply_right (1 : Fin 2) a b _ (ix2 p k) rfl rfl
      (ix2 p (⟨k.val - 31, by have := k.isLt; omega⟩ : Fin 25))
      (fun c hc => match c, hc with | ⟨0, _⟩, _ => rfl | ⟨1, _⟩, hc => absurd rfl hc)
      (by show (k.val - 31) + 31 = k.val; omega)

/-- A 25-column block followed by a 31-column block. -/
theorem cat_25_31_at (a : Vec Ideal S2048x25 .f32) (b : Vec Ideal S2048x31 .f32) (p : Fin 2048) (k : Fin 56) :
    concatenate S2048x56 1 [⟨S2048x25, a⟩, ⟨S2048x31, b⟩] concatenates_S2048x25_S2048x31_S2048x56_d1 (ix2 p k)
      = join25_31 (brow a p) (brow b p) k := by
  unfold join25_31
  by_cases hk : k.val < 25
  · rw [dif_pos hk]
    exact concatenate_pair_apply_left (1 : Fin 2) a b _ (ix2 p k) rfl (ix2 p (⟨k.val, hk⟩ : Fin 25))
      (fun c => match c with | ⟨0, _⟩ => rfl | ⟨1, _⟩ => rfl)
  · rw [dif_neg hk]
    exact concatenate_pair_apply_right (1 : Fin 2) a b _ (ix2 p k) rfl rfl
      (ix2 p (⟨k.val - 25, by have := k.isLt; omega⟩ : Fin 31))
      (fun c hc => match c, hc with | ⟨0, _⟩, _ => rfl | ⟨1, _⟩, hc => absurd rfl hc)
      (by show (k.val - 25) + 25 = k.val; omega)

/-! ## The two matrix products, read at an index -/

theorem lhs1_0 (i : S2048x100.Idx) (q : dot_S2048x56_S56x100_S2048x100_1_0_0_1_n_n.contr.Idx) :
    (dot_S2048x56_S56x100_S2048x100_1_0_0_1_n_n.lhsIdx i q 0).val = (i 0).val := by
  unfold DotDims.lhsIdx
  rw [dif_neg (show ¬(0 : Fin S2048x56.rank) ∈ dot_S2048x56_S56x100_S2048x100_1_0_0_1_n_n.lhsBatch by decide), dif_pos (show (0 : Fin S2048x56.rank) ∈ dot_S2048x56_S56x100_S2048x100_1_0_0_1_n_n.lhsNonContracting by decide)]
  rfl
theorem lhs1_1 (i : S2048x100.Idx) (q : dot_S2048x56_S56x100_S2048x100_1_0_0_1_n_n.contr.Idx) :
    (dot_S2048x56_S56x100_S2048x100_1_0_0_1_n_n.lhsIdx i q 1).val = (q ⟨0, by decide⟩).val :=
  dot_S2048x56_S56x100_S2048x100_1_0_0_1_n_n.lhsIdx_val_of_single rfl i q
theorem rhs1_0 (i : S2048x100.Idx) (q : dot_S2048x56_S56x100_S2048x100_1_0_0_1_n_n.contr.Idx) :
    (dot_S2048x56_S56x100_S2048x100_1_0_0_1_n_n.rhsIdx i q 0).val = (q ⟨0, by decide⟩).val :=
  dot_S2048x56_S56x100_S2048x100_1_0_0_1_n_n.rhsIdx_val_of_single rfl i q
theorem rhs1_1 (i : S2048x100.Idx) (q : dot_S2048x56_S56x100_S2048x100_1_0_0_1_n_n.contr.Idx) :
    (dot_S2048x56_S56x100_S2048x100_1_0_0_1_n_n.rhsIdx i q 1).val = (i 1).val := by
  unfold DotDims.rhsIdx
  rw [dif_neg (show ¬(1 : Fin S56x100.rank) ∈ dot_S2048x56_S56x100_S2048x100_1_0_0_1_n_n.rhsBatch by decide), dif_pos (show (1 : Fin S56x100.rank) ∈ dot_S2048x56_S56x100_S2048x100_1_0_0_1_n_n.rhsNonContracting by decide)]
  rfl

/-- The first product into a zero accumulator at (p, j): the sum over the 56 inputs of row p times column j. -/
theorem mm1_at (A : FVec Ideal S2048x56 .bf16) (W : FVec Ideal S56x100 .bf16) (p : Fin 2048) (j : Fin 100) :
    matmul dot_S2048x56_S56x100_S2048x100_1_0_0_1_n_n none A W (constant S2048x100 .f32 0x00000000#32) (ix2 p j)
      = ∑ k : Fin 56, A (ix2 p k) * W (ix2 k j) := by
  simp only [matmul]
  rw [Ideal.matmul_constant_zero_apply, ← Equiv.sum_comp (contrEquiv1 dot_S2048x56_S56x100_S2048x100_1_0_0_1_n_n 56 rfl rfl).symm]
  refine Finset.sum_congr rfl fun k _ => ?_
  have hk := contrEquiv1_symm_val dot_S2048x56_S56x100_S2048x100_1_0_0_1_n_n 56 rfl rfl k
  have el : dot_S2048x56_S56x100_S2048x100_1_0_0_1_n_n.lhsIdx (ix2 p j) ((contrEquiv1 dot_S2048x56_S56x100_S2048x100_1_0_0_1_n_n 56 rfl rfl).symm k) = ix2 p k := funext fun a => Fin.ext (by
    match a with
    | ⟨0, _⟩ => exact lhs1_0 _ _
    | ⟨1, _⟩ => exact (lhs1_1 _ _).trans hk)
  have er : dot_S2048x56_S56x100_S2048x100_1_0_0_1_n_n.rhsIdx (ix2 p j) ((contrEquiv1 dot_S2048x56_S56x100_S2048x100_1_0_0_1_n_n 56 rfl rfl).symm k) = ix2 k j := funext fun a => Fin.ext (by
    match a with
    | ⟨0, _⟩ => exact (rhs1_0 _ _).trans hk
    | ⟨1, _⟩ => exact rhs1_1 _ _)
  rw [el, er]

theorem lhs2_0 (i : S2048x124.Idx) (q : dot_S2048x56_S56x124_S2048x124_1_0_0_1_n_n.contr.Idx) :
    (dot_S2048x56_S56x124_S2048x124_1_0_0_1_n_n.lhsIdx i q 0).val = (i 0).val := by
  unfold DotDims.lhsIdx
  rw [dif_neg (show ¬(0 : Fin S2048x56.rank) ∈ dot_S2048x56_S56x124_S2048x124_1_0_0_1_n_n.lhsBatch by decide), dif_pos (show (0 : Fin S2048x56.rank) ∈ dot_S2048x56_S56x124_S2048x124_1_0_0_1_n_n.lhsNonContracting by decide)]
  rfl
theorem lhs2_1 (i : S2048x124.Idx) (q : dot_S2048x56_S56x124_S2048x124_1_0_0_1_n_n.contr.Idx) :
    (dot_S2048x56_S56x124_S2048x124_1_0_0_1_n_n.lhsIdx i q 1).val = (q ⟨0, by decide⟩).val :=
  dot_S2048x56_S56x124_S2048x124_1_0_0_1_n_n.lhsIdx_val_of_single rfl i q
theorem rhs2_0 (i : S2048x124.Idx) (q : dot_S2048x56_S56x124_S2048x124_1_0_0_1_n_n.contr.Idx) :
    (dot_S2048x56_S56x124_S2048x124_1_0_0_1_n_n.rhsIdx i q 0).val = (q ⟨0, by decide⟩).val :=
  dot_S2048x56_S56x124_S2048x124_1_0_0_1_n_n.rhsIdx_val_of_single rfl i q
theorem rhs2_1 (i : S2048x124.Idx) (q : dot_S2048x56_S56x124_S2048x124_1_0_0_1_n_n.contr.Idx) :
    (dot_S2048x56_S56x124_S2048x124_1_0_0_1_n_n.rhsIdx i q 1).val = (i 1).val := by
  unfold DotDims.rhsIdx
  rw [dif_neg (show ¬(1 : Fin S56x124.rank) ∈ dot_S2048x56_S56x124_S2048x124_1_0_0_1_n_n.rhsBatch by decide), dif_pos (show (1 : Fin S56x124.rank) ∈ dot_S2048x56_S56x124_S2048x124_1_0_0_1_n_n.rhsNonContracting by decide)]
  rfl

/-- The second product into a zero accumulator at (p, j). -/
theorem mm2_at (A : FVec Ideal S2048x56 .bf16) (W : FVec Ideal S56x124 .bf16) (p : Fin 2048) (j : Fin 124) :
    matmul dot_S2048x56_S56x124_S2048x124_1_0_0_1_n_n none A W (constant S2048x124 .f32 0x00000000#32) (ix2 p j)
      = ∑ k : Fin 56, A (ix2 p k) * W (ix2 k j) := by
  simp only [matmul]
  rw [Ideal.matmul_constant_zero_apply, ← Equiv.sum_comp (contrEquiv1 dot_S2048x56_S56x124_S2048x124_1_0_0_1_n_n 56 rfl rfl).symm]
  refine Finset.sum_congr rfl fun k _ => ?_
  have hk := contrEquiv1_symm_val dot_S2048x56_S56x124_S2048x124_1_0_0_1_n_n 56 rfl rfl k
  have el : dot_S2048x56_S56x124_S2048x124_1_0_0_1_n_n.lhsIdx (ix2 p j) ((contrEquiv1 dot_S2048x56_S56x124_S2048x124_1_0_0_1_n_n 56 rfl rfl).symm k) = ix2 p k := funext fun a => Fin.ext (by
    match a with
    | ⟨0, _⟩ => exact lhs2_0 _ _
    | ⟨1, _⟩ => exact (lhs2_1 _ _).trans hk)
  have er : dot_S2048x56_S56x124_S2048x124_1_0_0_1_n_n.rhsIdx (ix2 p j) ((contrEquiv1 dot_S2048x56_S56x124_S2048x124_1_0_0_1_n_n 56 rfl rfl).symm k) = ix2 k j := funext fun a => Fin.ext (by
    match a with
    | ⟨0, _⟩ => exact (rhs2_0 _ _).trans hk
    | ⟨1, _⟩ => exact rhs2_1 _ _)
  rw [el, er]

/-! ## Broadcasts, slices and the column shape read at an index -/

/-- A one-row block broadcast down 2048 rows: entry (p, j) is the row's entry j. -/
theorem bcast_rows_at {n : Nat} (hn : n ≠ 1) (x : (⟨2, ![1, n]⟩ : Shape).Idx → EReal)
    (h : (⟨2, ![1, n]⟩ : Shape).Broadcasts ⟨2, ![2048, n]⟩) (p : Fin 2048) (j : Fin n) :
    broadcastTo (⟨2, ![2048, n]⟩ : Shape) x h (ix2 p j) = x (ix2 (0 : Fin 1) j) :=
  broadcastTo_apply x h (ix2 p j) (ix2 (0 : Fin 1) j) (fun a => match a with
    | ⟨0, _⟩ => by show 0 = if (1 : Nat) = 1 then 0 else _; rw [if_pos rfl]
    | ⟨1, _⟩ => by show j.val = if n = 1 then 0 else _; rw [if_neg hn]; rfl)

/-- A one-column block broadcast across 31 columns: entry (p, q) is row p's one entry. -/
theorem bcast_col_at (x : (⟨2, ![2048, 1]⟩ : Shape).Idx → EReal)
    (h : (⟨2, ![2048, 1]⟩ : Shape).Broadcasts ⟨2, ![2048, 31]⟩) (p : Fin 2048) (q : Fin 31) :
    broadcastTo (⟨2, ![2048, 31]⟩ : Shape) x h (ix2 p q) = x (ix2 p (0 : Fin 1)) :=
  broadcastTo_apply x h (ix2 p q) (ix2 p (0 : Fin 1)) (fun a => match a with
    | ⟨0, _⟩ => by show p.val = if (2048 : Nat) = 1 then 0 else _; rw [if_neg (by decide)]; rfl
    | ⟨1, _⟩ => by show 0 = if (1 : Nat) = 1 then 0 else _; rw [if_pos rfl])

/-- A vector of 2048 entries seen as one column: entry (p, 0) is entry p. -/
theorem col_of_vec_at (v : (⟨1, ![2048]⟩ : Shape).Idx → EReal)
    (h : (⟨1, ![2048]⟩ : Shape).ShapeCasts ⟨2, ![2048, 1]⟩) (p : Fin 2048) :
    shapeCast (⟨2, ![2048, 1]⟩ : Shape) v h (ix2 p (0 : Fin 1)) = v (ix1 p) :=
  shapeCast_apply v h (ix2 p (0 : Fin 1)) (ix1 p)
    (by rw [Shape.rowMajor_val_one, Shape.rowMajor_val_two]; show p.val = p.val * 1 + 0; omega)

/-- Columns off … off + w − 1 of a block: entry (p, q) is entry (p, q + off). -/
theorem slice_cols_at {n w : Nat} (off : Nat) (G : (⟨2, ![2048, n]⟩ : Shape).Idx → EReal)
    (h : (⟨2, ![2048, n]⟩ : Shape).Slices ![0, off] ⟨2, ![2048, w]⟩) (p : Fin 2048) (q : Fin w) (hq : q.val + off < n) :
    extractStridedSlice (⟨2, ![2048, w]⟩ : Shape) ![0, off] G h (ix2 p q) = G (ix2 p (⟨q.val + off, hq⟩ : Fin n)) :=
  extractStridedSlice_apply ![0, off] G h (ix2 p q) (ix2 p (⟨q.val + off, hq⟩ : Fin n)) (fun a => match a with
    | ⟨0, _⟩ => by show p.val = 0 + p.val; omega
    | ⟨1, _⟩ => by show q.val + off = off + q.val; omega)

/-! ## The first cell -/

section
variable (v0 : Vec Ideal S2048x31 .f32) (v1 : Vec Ideal S2048x25 .f32) (v4 : Vec Ideal S56x100 .bf16) (v7 : Vec Ideal S1x100 .f32)
  (v19 : Vec Ideal S1x25 .f32)

/-- The first cell's gate pre-activations at (p, j). -/
theorem pay4_at (p : Fin 2048) (j : Fin 100) :
    k0_pay4 v0 v1 v4 v7 (ix2 p j) = pre (join31_25 (brow v0 p) (brow v1 p)) (tmat v4) (row0 v7) j := by
  unfold k0_pay4 pre
  rw [addf_apply, mm1_at, shapeCast_self, shapeCast_self, bcast_rows_at (by decide)]
  congr 1
  refine Finset.sum_congr rfl fun k _ => ?_
  rw [truncf_apply, cat_31_25_at]

/-- The first cell's new state at (p, q). -/
theorem pay5_at (p : Fin 2048) (q : Fin 25) :
    k0_pay5 v0 v1 v4 v7 v19 (ix2 p q) = ctx1 (join31_25 (brow v0 p) (brow v1 p)) (row0 v19) (tmat v4) (row0 v7) q := by
  unfold k0_pay5 ctx1 ctxOf
  rw [addf_apply, mulf_apply, mulf_apply, shapeCast_self, bcast_rows_at (by decide)]
  show _ * Ideal.logistic (extractStridedSlice S2048x25 ![0, 0] (k0_pay4 v0 v1 v4 v7) slices_S2048x100_o0_0_S2048x25 (ix2 p q))
      + Ideal.logistic (extractStridedSlice S2048x25 ![0, 25] (k0_pay4 v0 v1 v4 v7) slices_S2048x100_o0_25_S2048x25 (ix2 p q))
        * Ideal.tanh (extractStridedSlice S2048x25 ![0, 50] (k0_pay4 v0 v1 v4 v7) slices_S2048x100_o0_50_S2048x25 (ix2 p q)) = _
  rw [slice_cols_at 0 _ _ p q (by have := q.isLt; omega), slice_cols_at 25 _ _ p q (by have := q.isLt; omega),
    slice_cols_at 50 _ _ p q (by have := q.isLt; omega), pay4_at, pay4_at, pay4_at]
  rfl

/-- The stored hidden block at (p, q). -/
theorem pay6_at (p : Fin 2048) (q : Fin 25) :
    k0_pay6 v0 v1 v4 v7 v19 (ix2 p q) = hid1 (join31_25 (brow v0 p) (brow v1 p)) (row0 v19) (tmat v4) (row0 v7) q := by
  unfold k0_pay6 hid1 outOf
  rw [mulf_apply]
  show Ideal.tanh (k0_pay5 v0 v1 v4 v7 v19 (ix2 p q))
      * Ideal.logistic (extractStridedSlice S2048x25 ![0, 75] (k0_pay4 v0 v1 v4 v7) slices_S2048x100_o0_75_S2048x25 (ix2 p q)) = _
  rw [slice_cols_at 75 _ _ p q (by have := q.isLt; omega), pay4_at, pay5_at]
end

/-! ## The log-softmax of a block's rows -/

/-- The source index of a row reduction over result index p, at column k, is (p, k). -/
theorem lift_row (h : S2048x31.Reduces [1] S2048) (p : Fin 2048) (k : Fin 31) : h.lift (ix1 p) k = ix2 p k :=
  funext fun a => Fin.ext (by match a with | ⟨0, _⟩ => rfl | ⟨1, _⟩ => rfl)

/-- The pattern of −∞ denotes the bottom of the extended reals. -/
theorem ofBits_neg_inf : Ideal.ofBits .f32 0xFF800000#32 = ⊥ := by
  simp [Ideal.ofBits, Ideal.ieee]

/-- A block's row maximum at row p. -/
theorem rowmax_at (O : FVec Ideal S2048x31 .f32) (p : Fin 2048) :
    multiReduction .maximumf [1] S2048 O 0xFF800000#32 reduces_S2048x31_S2048 (.inl rfl) rfl (ix1 p) = rowMax (brow O p) := by
  refine (Ideal.multiReduction_maximumf_single O 0xFF800000#32 reduces_S2048x31_S2048 (.inl rfl) rfl (ix1 p)).trans ?_
  unfold rowMax
  have e2 : (O ∘ reduces_S2048x31_S2048.lift (ix1 p)) = brow O p := funext fun k => congrArg O (lift_row _ p k)
  rw [e2]
  show (Finset.univ : Finset (Fin 31)).fold max (Ideal.ofBits .f32 0xFF800000#32) (brow O p) = _
  rw [ofBits_neg_inf]

/-- A block's row sum at row p. -/
theorem rowsum_at (E : FVec Ideal S2048x31 .f32) (p : Fin 2048) :
    multiReduction .add [1] S2048 E 0x00000000#32 reduces_S2048x31_S2048 (.inl rfl) rfl (ix1 p) = ∑ k : Fin 31, E (ix2 p k) := by
  refine (Ideal.multiReduction_add_single E 0x00000000#32 reduces_S2048x31_S2048 (.inl rfl) rfl (ix1 p)).trans ?_
  show ∑ k : Fin 31, E (reduces_S2048x31_S2048.lift (ix1 p) k) = _
  refine Finset.sum_congr rfl fun k _ => ?_
  rw [lift_row]

/-- The row maximum, laid out as a column and broadcast back over the block. -/
abbrev maxBlock (O : FVec Ideal S2048x31 .f32) : FVec Ideal S2048x31 .f32 :=
  broadcastTo S2048x31 (shapeCast S2048x1 (multiReduction .maximumf [1] S2048 O 0xFF800000#32 reduces_S2048x31_S2048 (.inl rfl) rfl) shapeCasts_S2048_S2048x1) broadcasts_S2048x1_S2048x31

theorem maxBlock_at (O : FVec Ideal S2048x31 .f32) (p : Fin 2048) (q : Fin 31) : maxBlock O (ix2 p q) = rowMax (brow O p) := by
  unfold maxBlock
  rw [bcast_col_at, col_of_vec_at, rowmax_at]

/-- The block-level log-softmax at (p, q) is the log-softmax of row p at q. -/
theorem logsm_at (O : FVec Ideal S2048x31 .f32) (p : Fin 2048) (q : Fin 31) :
    subf (subf O (maxBlock O))
      (broadcastTo S2048x31 (log (shapeCast S2048x1 (multiReduction .add [1] S2048 (exp (subf O (maxBlock O))) 0x00000000#32 reduces_S2048x31_S2048 (.inl rfl) rfl) shapeCasts_S2048_S2048x1)) broadcasts_S2048x1_S2048x31)
      (ix2 p q) = logSoftmax (brow O p) q := by
  unfold logSoftmax
  rw [subf_apply, subf_apply, maxBlock_at, bcast_col_at]
  show _ - Ideal.log (shapeCast S2048x1 (multiReduction .add [1] S2048 (exp (subf O (maxBlock O))) 0x00000000#32 reduces_S2048x31_S2048 (.inl rfl) rfl) shapeCasts_S2048_S2048x1 (ix2 p (0 : Fin 1))) = _
  rw [col_of_vec_at, rowsum_at]
  refine congrArg (fun s => (O (ix2 p q) - rowMax (brow O p)) - Ideal.log s) (Finset.sum_congr rfl fun k _ => ?_)
  show Ideal.exp (subf O (maxBlock O) (ix2 p k)) = _
  rw [subf_apply, maxBlock_at]

/-! ## The second cell and the three stored blocks -/

section
variable (v0 : Vec Ideal S2048x31 .f32) (v1 : Vec Ideal S2048x25 .f32) (v4 : Vec Ideal S56x100 .bf16) (v7 : Vec Ideal S1x100 .f32)
  (v19 : Vec Ideal S1x25 .f32) (v27 : Vec Ideal S2048x31 .f32) (v30 : Vec Ideal S56x124 .bf16) (v33 : Vec Ideal S1x124 .f32)
  (v45 : Vec Ideal S1x31 .f32)

/-- The second cell's gate pre-activations at (p, j). -/
theorem pay7_at (p : Fin 2048) (j : Fin 124) :
    k0_pay7 v0 v1 v4 v7 v19 v27 v30 v33 (ix2 p j)
      = pre (u2 (brow v0 p) (brow v1 p) (brow v27 p) (row0 v19) (tmat v4) (row0 v7)) (tmat v30) (row0 v33) j := by
  unfold k0_pay7 pre
  rw [addf_apply, mm2_at, shapeCast_self, shapeCast_self, bcast_rows_at (by decide)]
  congr 1
  refine Finset.sum_congr rfl fun k _ => ?_
  rw [truncf_apply, cat_25_31_at]
  have e : brow (k0_pay6 v0 v1 v4 v7 v19) p = hid1 (join31_25 (brow v0 p) (brow v1 p)) (row0 v19) (tmat v4) (row0 v7) :=
    funext fun q => pay6_at v0 v1 v4 v7 v19 p q
  rw [e]
  rfl

/-- The second cell's forget gate at (p, q). -/
theorem pay8_at (p : Fin 2048) (q : Fin 31) :
    k0_pay8 v0 v1 v4 v7 v19 v27 v30 v33 (ix2 p q)
      = Ideal.logistic (pre (u2 (brow v0 p) (brow v1 p) (brow v27 p) (row0 v19) (tmat v4) (row0 v7)) (tmat v30) (row0 v33) ⟨q.val, by have := q.isLt; omega⟩) := by
  unfold k0_pay8
  show Ideal.logistic (extractStridedSlice S2048x31 ![0, 0] (k0_pay7 v0 v1 v4 v7 v19 v27 v30 v33) slices_S2048x124_o0_0_S2048x31 (ix2 p q)) = _
  rw [slice_cols_at 0 _ _ p q (by have := q.isLt; omega), pay7_at]
  rfl

/-- The second cell's input gate at (p, q). -/
theorem pay9_at (p : Fin 2048) (q : Fin 31) :
    k0_pay9 v0 v1 v4 v7 v19 v27 v30 v33 (ix2 p q)
      = Ideal.logistic (pre (u2 (brow v0 p) (brow v1 p) (brow v27 p) (row0 v19) (tmat v4) (row0 v7)) (tmat v30) (row0 v33) ⟨q.val + 31, by have := q.isLt; omega⟩) := by
  unfold k0_pay9
  show Ideal.logistic (extractStridedSlice S2048x31 ![0, 31] (k0_pay7 v0 v1 v4 v7 v19 v27 v30 v33) slices_S2048x124_o0_31_S2048x31 (ix2 p q)) = _
  rw [slice_cols_at 31 _ _ p q (by have := q.isLt; omega), pay7_at]

/-- The second cell's new state at (p, q). -/
theorem pay1_at (p : Fin 2048) (q : Fin 31) :
    k0_pay1 (k0_pay7 v0 v1 v4 v7 v19 v27 v30 v33) (k0_pay8 v0 v1 v4 v7 v19 v27 v30 v33) (k0_pay9 v0 v1 v4 v7 v19 v27 v30 v33) v45 (ix2 p q)
      = ctx2 (u2 (brow v0 p) (brow v1 p) (brow v27 p) (row0 v19) (tmat v4) (row0 v7)) (row0 v45) (tmat v30) (row0 v33) q := by
  unfold k0_pay1 ctx2 ctxOf
  rw [addf_apply, mulf_apply, mulf_apply, shapeCast_self, bcast_rows_at (by decide), pay8_at, pay9_at]
  show _ + _ * Ideal.tanh (extractStridedSlice S2048x31 ![0, 62] (k0_pay7 v0 v1 v4 v7 v19 v27 v30 v33) slices_S2048x124_o0_62_S2048x31 (ix2 p q)) = _
  rw [slice_cols_at 62 _ _ p q (by have := q.isLt; omega), pay7_at]

/-- The stored hidden block at (p, q). -/
theorem hid_at (p : Fin 2048) (q : Fin 25) :
    k0_pay6 v0 v1 v4 v7 v19 (ix2 p q) = hidRow (brow v0 p) (brow v1 p) (row0 v19) (tmat v4) (row0 v7) q :=
  pay6_at v0 v1 v4 v7 v19 p q

/-- The stored log-softmax block at (p, q). -/
theorem out_at (p : Fin 2048) (q : Fin 31) :
    k0_pay2 (k0_pay7 v0 v1 v4 v7 v19 v27 v30 v33) (k0_pay8 v0 v1 v4 v7 v19 v27 v30 v33) (k0_pay9 v0 v1 v4 v7 v19 v27 v30 v33) v45 (ix2 p q)
      = outRow (brow v0 p) (brow v1 p) (brow v27 p) (row0 v19) (row0 v45) (tmat v4) (row0 v7) (tmat v30) (row0 v33) q := by
  unfold k0_pay2 outRow
  refine (logsm_at _ p q).trans ?_
  congr 1
  funext r
  unfold out2 outOf
  show Ideal.tanh (k0_pay1 (k0_pay7 v0 v1 v4 v7 v19 v27 v30 v33) (k0_pay8 v0 v1 v4 v7 v19 v27 v30 v33) (k0_pay9 v0 v1 v4 v7 v19 v27 v30 v33) v45 (ix2 p r))
      * Ideal.logistic (extractStridedSlice S2048x31 ![0, 93] (k0_pay7 v0 v1 v4 v7 v19 v27 v30 v33) slices_S2048x124_o0_93_S2048x31 (ix2 p r)) = _
  rw [pay1_at, slice_cols_at 93 _ _ p r (by have := r.isLt; omega), pay7_at]

/-- The stored state block at (p, q). -/
theorem ctx_at (p : Fin 2048) (q : Fin 56) :
    k0_pay3 (k0_pay5 v0 v1 v4 v7 v19) (k0_pay7 v0 v1 v4 v7 v19 v27 v30 v33) (k0_pay8 v0 v1 v4 v7 v19 v27 v30 v33) (k0_pay9 v0 v1 v4 v7 v19 v27 v30 v33) v45 (ix2 p q)
      = ctxRow (brow v0 p) (brow v1 p) (brow v27 p) (row0 v19) (row0 v45) (tmat v4) (row0 v7) (tmat v30) (row0 v33) q := by
  unfold k0_pay3 ctxRow
  rw [cat_25_31_at]
  have e1 : brow (k0_pay5 v0 v1 v4 v7 v19) p = ctx1 (join31_25 (brow v0 p) (brow v1 p)) (row0 v19) (tmat v4) (row0 v7) :=
    funext fun r => pay5_at v0 v1 v4 v7 v19 p r
  have e2 : brow (k0_pay1 (k0_pay7 v0 v1 v4 v7 v19 v27 v30 v33) (k0_pay8 v0 v1 v4 v7 v19 v27 v30 v33) (k0_pay9 v0 v1 v4 v7 v19 v27 v30 v33) v45) p
      = ctx2 (u2 (brow v0 p) (brow v1 p) (brow v27 p) (row0 v19) (tmat v4) (row0 v7)) (row0 v45) (tmat v30) (row0 v33) :=
    funext fun r => pay1_at v0 v1 v4 v7 v19 v27 v30 v33 v45 p r
  rw [e1, e2]
end

end Cert.KernelIdeal.Rows

end
-- ==== Proof.KernelArrays.lean ====
/-
  From blocks to arrays, on the kernel's side.

  The batch of 524288 rows is cut into 256 blocks of 2048 rows; grid point t works on block t. Its three batch
  inputs are rows 2048 t … 2048 t + 2047 of the first three arguments; its six small inputs are whole arrays that
  do not move with t: the first 25 and the last 31 entries of row 0 of the state array, the two weight matrices
  transposed to [input, gate], and the two biases laid out as one row each. What point t writes back to each of
  the three results is the row function of TwoCellSpec applied to every row of its blocks (KernelRows), so it is
  block t of the spec's whole-array function; the 256 blocks tile each result (row r lies in block r / 2048), so
  after the run each result array IS that function of the eight arguments.
-/
import proofs.«137660_j37933151158488_1_alg».proof.Proof.Gen.KernelIdeal.Value
import proofs.«137660_j37933151158488_1_alg».proof.Proof.KernelRows
import Idealize.ShloMosaic.Lib.Pipeline.Value
import Idealize.ShloMosaic.Lib.ValueIdx

noncomputable section

open scoped BigOperators

namespace Cert.KernelIdeal.Arrays

open Cert.KernelIdeal Cert.KernelIdeal.Gen Cert.KernelIdeal.Rows Idealize.ShloMosaic Idealize.ShloMosaic.TcCoe Idealize.SL.Sem
open Idealize.ShloMosaic.ValueIdx Cert.TwoCell
open Idealize.ShloMosaic.Pipeline (Dat)

variable (m : (ℓ : Loc nD τ sig) → Buf (Elt Ideal) ℓ) (ρ : Dev nD → PrngReg)

/-- The zero offsets of a whole-block access, as a constant function. -/
theorem hz : (![0, 0] : Fin 2 → Nat) = fun _ => 0 := funext fun a => by fin_cases a <;> rfl

/-! ## Where each window's block sits

A block's coordinate in its array is always (block index) × (block size) + (coordinate inside the block). -/

/-- The block indices at grid point `t`, decided over the 256 points: the six batch windows (three inputs, three
    results) are at block `(t, 0)`; the six small inputs stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-! The batch windows' blocks are rows `2048 t + p` of their arrays. -/

/-- Row `p` of the input block at point `t` is row `2048 t + p` of the input array. -/
theorem blk0_apply (c : Dev nD) (t : Fin cfg0.N) (p : Fin 2048) (k : Fin 31) (r : Fin 524288) (hr : r.val = 2048 * t.val + p.val) :
    (iblk m c 0 t : Vec Ideal S2048x31 .f32) (ix2 p k) = (m ((c : Thread nD τ).loc main_arg0) : S524288x31.Idx → EReal) (ix2 r k) := by
  have hi := idx_facts t
  show V m c main_arg0 (((cfg0.win 0).blk t).view.emb (ix2 p k)) = _
  rw [V_main_arg0]
  refine congrArg _ ?_
  funext a; apply Fin.ext
  match a with
  | ⟨0, _⟩ => show win0_0.index t (0 : Fin 2) * 2048 + 1 * p.val = r.val; omega
  | ⟨1, _⟩ => show win0_0.index t (1 : Fin 2) * 31 + 1 * k.val = k.val; omega

/-- Row `p` of the previous-output block at point `t` is row `2048 t + p` of the previous-output array. -/
theorem blk1_apply (c : Dev nD) (t : Fin cfg0.N) (p : Fin 2048) (k : Fin 31) (r : Fin 524288) (hr : r.val = 2048 * t.val + p.val) :
    (iblk m c 1 t : Vec Ideal S2048x31 .f32) (ix2 p k) = (m ((c : Thread nD τ).loc main_arg1) : S524288x31.Idx → EReal) (ix2 r k) := by
  have hi := idx_facts t
  show V m c main_arg1 (((cfg0.win 1).blk t).view.emb (ix2 p k)) = _
  rw [V_main_arg1]
  refine congrArg _ ?_
  funext a; apply Fin.ext
  match a with
  | ⟨0, _⟩ => show win0_1.index t (0 : Fin 2) * 2048 + 1 * p.val = r.val; omega
  | ⟨1, _⟩ => show win0_1.index t (1 : Fin 2) * 31 + 1 * k.val = k.val; omega

/-- Row `p` of the hidden block at point `t` is row `2048 t + p` of the hidden array. -/
theorem blk2_apply (c : Dev nD) (t : Fin cfg0.N) (p : Fin 2048) (k : Fin 25) (r : Fin 524288) (hr : r.val = 2048 * t.val + p.val) :
    (iblk m c 2 t : Vec Ideal S2048x25 .f32) (ix2 p k) = (m ((c : Thread nD τ).loc main_arg2) : S524288x25.Idx → EReal) (ix2 r k) := by
  have hi := idx_facts t
  show V m c main_arg2 (((cfg0.win 2).blk t).view.emb (ix2 p k)) = _
  rw [V_main_arg2]
  refine congrArg _ ?_
  funext a; apply Fin.ext
  match a with
  | ⟨0, _⟩ => show win0_2.index t (0 : Fin 2) * 2048 + 1 * p.val = r.val; omega
  | ⟨1, _⟩ => show win0_2.index t (1 : Fin 2) * 25 + 1 * k.val = k.val; omega

/-! The one-block windows' blocks are their whole arrays. -/

/-- The first state row's block at any point is its whole array. -/
theorem blk3_eq (c : Dev nD) (t : Fin cfg0.N) : (iblk m c 3 t : Vec Ideal S1x25 .f32) = (V m c main_v0 : S1x25.Idx → EReal) := by
  have hi := idx_facts t
  funext y
  show V m c main_v0 (((cfg0.win 3).blk t).view.emb y) = V m c main_v0 y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 25 + 1 * (y 1).val = (y 1).val; omega

/-- The second state row's block at any point is its whole array. -/
theorem blk4_eq (c : Dev nD) (t : Fin cfg0.N) : (iblk m c 4 t : Vec Ideal S1x31 .f32) = (V m c main_v1 : S1x31.Idx → EReal) := by
  have hi := idx_facts t
  funext y
  show V m c main_v1 (((cfg0.win 4).blk t).view.emb y) = V m c main_v1 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 31 + 1 * (y 1).val = (y 1).val; omega

/-- The transposed first weight matrix's block at any point is its whole array. -/
theorem blk5_eq (c : Dev nD) (t : Fin cfg0.N) : (iblk m c 5 t : Vec Ideal S56x100 .bf16) = (V m c main_v3 : S56x100.Idx → EReal) := by
  have hi := idx_facts t
  funext y
  show V m c main_v3 (((cfg0.win 5).blk t).view.emb y) = V m c main_v3 y
  refine congrArg _ ?_
  funext a; apply Fin.ext
  match a with
  | ⟨0, _⟩ => show win0_5.index t (0 : Fin 2) * 56 + 1 * (y 0).val = (y 0).val; omega
  | ⟨1, _⟩ => show win0_5.index t (1 : Fin 2) * 100 + 1 * (y 1).val = (y 1).val; omega

/-- The first bias row's block at any point is its whole array. -/
theorem blk6_eq (c : Dev nD) (t : Fin cfg0.N) : (iblk m c 6 t : Vec Ideal S1x100 .f32) = (V m c main_v6 : S1x100.Idx → EReal) := by
  have hi := idx_facts t
  funext y
  show V m c main_v6 (((cfg0.win 6).blk t).view.emb y) = V m c main_v6 y
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 100 + 1 * (y 1).val = (y 1).val; omega

/-- The transposed second weight matrix's block at any point is its whole array. -/
theorem blk7_eq (c : Dev nD) (t : Fin cfg0.N) : (iblk m c 7 t : Vec Ideal S56x124 .bf16) = (V m c main_v5 : S56x124.Idx → EReal) := by
  have hi := idx_facts t
  funext y
  show V m c main_v5 (((cfg0.win 7).blk t).view.emb y) = V m c main_v5 y
  refine congrArg _ ?_
  funext a; apply Fin.ext
  match a with
  | ⟨0, _⟩ => show win0_7.index t (0 : Fin 2) * 56 + 1 * (y 0).val = (y 0).val; omega
  | ⟨1, _⟩ => show win0_7.index t (1 : Fin 2) * 124 + 1 * (y 1).val = (y 1).val; omega

/-- The second bias row's block at any point is its whole array. -/
theorem blk8_eq (c : Dev nD) (t : Fin cfg0.N) : (iblk m c 8 t : Vec Ideal S1x124 .f32) = (V m c main_v7 : S1x124.Idx → EReal) := by
  have hi := idx_facts t
  funext y
  show V m c main_v7 (((cfg0.win 8).blk t).view.emb y) = V m c main_v7 y
  refine congrArg _ ?_
  funext a; apply Fin.ext
  match a with
  | ⟨0, _⟩ => show win0_8.index t (0 : Fin 2) * 1 + 1 * (y 0).val = (y 0).val; omega
  | ⟨1, _⟩ => show win0_8.index t (1 : Fin 2) * 124 + 1 * (y 1).val = (y 1).val; omega

/-! ## The small inputs: what the host operations before the kernel wrote -/

/-- The first state row: the slice [0:1, 0:25] of the state array. -/
theorem host_v0 (c : Dev nD) : (V m c main_v0 : S1x25.Idx → EReal)
    = extractStridedSlice S1x25 ![0, 0] (m ((c : Thread nD τ).loc main_arg3) : S524288x56.Idx → EReal) slices_S524288x56_S1x25_0_0 := by
  dsimp only [Gen.V, Gen.hostOps0]; after_results

/-- The second state row: the slice [0:1, 25:56] of the state array. -/
theorem host_v1 (c : Dev nD) : (V m c main_v1 : S1x31.Idx → EReal)
    = extractStridedSlice S1x31 ![0, 25] (m ((c : Thread nD τ).loc main_arg3) : S524288x56.Idx → EReal) slices_S524288x56_S1x31_0_25 := by
  dsimp only [Gen.V, Gen.hostOps0]; after_results

/-- The first weight block: the first weight matrix transposed (the change of format is the identity on the extended reals). -/
theorem host_v3 (c : Dev nD) : (V m c main_v3 : S56x100.Idx → EReal)
    = truncf (F := Ideal) .bf16 (transpose S56x100 [1, 0] (m ((c : Thread nD τ).loc main_arg4) : S100x56.Idx → EReal) transposes_S100x56_S56x100_1_0) bitsLt_bf16_f32 := by
  dsimp only [Gen.V, Gen.hostOps0]; after_results

/-- The second weight block: the second weight matrix transposed. -/
theorem host_v5 (c : Dev nD) : (V m c main_v5 : S56x124.Idx → EReal)
    = truncf (F := Ideal) .bf16 (transpose S56x124 [1, 0] (m ((c : Thread nD τ).loc main_arg6) : S124x56.Idx → EReal) transposes_S124x56_S56x124_1_0) bitsLt_bf16_f32 := by
  dsimp only [Gen.V, Gen.hostOps0]; after_results

/-- The first bias row: the first bias vector reshaped to one row. -/
theorem host_v6 (c : Dev nD) : (V m c main_v6 : S1x100.Idx → EReal)
    = shapeCast S1x100 (m ((c : Thread nD τ).loc main_arg5) : S100.Idx → EReal) shapeCasts_S100_S1x100 := by
  dsimp only [Gen.V, Gen.hostOps0]; after_results; rfl

/-- The second bias row: the second bias vector reshaped to one row. -/
theorem host_v7 (c : Dev nD) : (V m c main_v7 : S1x124.Idx → EReal)
    = shapeCast S1x124 (m ((c : Thread nD τ).loc main_arg7) : S124.Idx → EReal) shapeCasts_S124_S1x124 := by
  dsimp only [Gen.V, Gen.hostOps0]; after_results; rfl

/-! The small inputs read as the spec reads the arguments. -/

/-- The first state row is the first cell's old state. -/
theorem c1_row (c : Dev nD) : row0 (V m c main_v0 : S1x25.Idx → EReal) = c1Of (m ((c : Thread nD τ).loc main_arg3)) := by
  funext k
  have hk := k.isLt
  show (V m c main_v0 : S1x25.Idx → EReal) (ix2 (0 : Fin 1) k) = (m ((c : Thread nD τ).loc main_arg3) : S524288x56.Idx → EReal) (ix2 (⟨0, by decide⟩ : Fin 524288) (⟨k.val, by omega⟩ : Fin 56))
  rw [host_v0]
  exact extractStridedSlice_apply _ _ _ _ _ (fun a => match a with
    | ⟨0, _⟩ => by show (0 : ℕ) = 0 + 0; rfl
    | ⟨1, _⟩ => by show k.val = 0 + k.val; omega)

/-- The second state row is the second cell's old state. -/
theorem c2_row (c : Dev nD) : row0 (V m c main_v1 : S1x31.Idx → EReal) = c2Of (m ((c : Thread nD τ).loc main_arg3)) := by
  funext k
  have hk := k.isLt
  show (V m c main_v1 : S1x31.Idx → EReal) (ix2 (0 : Fin 1) k) = (m ((c : Thread nD τ).loc main_arg3) : S524288x56.Idx → EReal) (ix2 (⟨0, by decide⟩ : Fin 524288) (⟨k.val + 25, by omega⟩ : Fin 56))
  rw [host_v1]
  exact extractStridedSlice_apply _ _ _ _ _ (fun a => match a with
    | ⟨0, _⟩ => by show (0 : ℕ) = 0 + 0; rfl
    | ⟨1, _⟩ => by show k.val + 25 = 25 + k.val; omega)

/-- The first weight block, read as [gate, input], is the first weight matrix. -/
theorem w1_mat (c : Dev nD) : tmat (V m c main_v3 : S56x100.Idx → EReal) = matOf (m ((c : Thread nD τ).loc main_arg4)) := by
  funext j k
  show (V m c main_v3 : S56x100.Idx → EReal) (ix2 k j) = (m ((c : Thread nD τ).loc main_arg4) : S100x56.Idx → EReal) (ix2 j k)
  rw [host_v3]
  exact transpose_apply [1, 0] _ _ (ix2 k j) (ix2 j k) (fun b => match b with
    | ⟨0, _⟩ => rfl
    | ⟨1, _⟩ => rfl)

/-- The second weight block, read as [gate, input], is the second weight matrix. -/
theorem w2_mat (c : Dev nD) : tmat (V m c main_v5 : S56x124.Idx → EReal) = matOf (m ((c : Thread nD τ).loc main_arg6)) := by
  funext j k
  show (V m c main_v5 : S56x124.Idx → EReal) (ix2 k j) = (m ((c : Thread nD τ).loc main_arg6) : S124x56.Idx → EReal) (ix2 j k)
  rw [host_v5]
  exact transpose_apply [1, 0] _ _ (ix2 k j) (ix2 j k) (fun b => match b with
    | ⟨0, _⟩ => rfl
    | ⟨1, _⟩ => rfl)

/-- The first bias row is the first bias vector. -/
theorem b1_row (c : Dev nD) : row0 (V m c main_v6 : S1x100.Idx → EReal) = vecOf (m ((c : Thread nD τ).loc main_arg5)) := by
  funext j
  show (V m c main_v6 : S1x100.Idx → EReal) (ix2 (0 : Fin 1) j) = (m ((c : Thread nD τ).loc main_arg5) : S100.Idx → EReal) (ix1 j)
  rw [host_v6]
  refine shapeCast_apply _ _ (ix2 (0 : Fin 1) j) (ix1 j) ?_
  rw [Shape.rowMajor_val_one, Shape.rowMajor_val_two]
  show j.val = 0 * 100 + j.val
  omega

/-- The second bias row is the second bias vector. -/
theorem b2_row (c : Dev nD) : row0 (V m c main_v7 : S1x124.Idx → EReal) = vecOf (m ((c : Thread nD τ).loc main_arg7)) := by
  funext j
  show (V m c main_v7 : S1x124.Idx → EReal) (ix2 (0 : Fin 1) j) = (m ((c : Thread nD τ).loc main_arg7) : S124.Idx → EReal) (ix1 j)
  rw [host_v7]
  refine shapeCast_apply _ _ (ix2 (0 : Fin 1) j) (ix1 j) ?_
  rw [Shape.rowMajor_val_one, Shape.rowMajor_val_two]
  show j.val = 0 * 124 + j.val
  omega

/-! ## One stored entry against the spec

Over arbitrary blocks `X…` and arrays `A…`: if row `p` of each batch block is row `r` of its array and the small
blocks are the arrays' state rows, weights and biases, the stored entry `(p, q)` is the spec's array at `(r, q)`. -/

/-- The new hidden entry. -/
theorem hid_point (X0 : Vec Ideal S2048x31 .f32) (X2 : Vec Ideal S2048x25 .f32) (X5 : Vec Ideal S56x100 .bf16) (X6 : Vec Ideal S1x100 .f32)
    (X3 : Vec Ideal S1x25 .f32)
    (A0 : SBx31.Idx → EReal) (A2 : SBx25.Idx → EReal) (A3 : SBx56.Idx → EReal) (A4 : SW1.Idx → EReal) (A5 : Sb1.Idx → EReal)
    (p : Fin 2048) (q : Fin 25) (r : Fin 524288)
    (h0 : brow X0 p = rowOf A0 r) (h2 : brow X2 p = rowOf A2 r) (h3 : row0 X3 = c1Of A3) (h5 : tmat X5 = matOf A4)
    (h6 : row0 X6 = vecOf A5) :
    k0_pay6 X0 X2 X5 X6 X3 (ix2 p q) = hidArr A0 A2 A3 A4 A5 (ix2 r q) := by
  rw [hid_at, h0, h2, h3, h5, h6]; rfl

/-- The log-softmax entry. -/
theorem out_point (X0 : Vec Ideal S2048x31 .f32) (X2 : Vec Ideal S2048x25 .f32) (X5 : Vec Ideal S56x100 .bf16) (X6 : Vec Ideal S1x100 .f32)
    (X3 : Vec Ideal S1x25 .f32) (X1 : Vec Ideal S2048x31 .f32) (X7 : Vec Ideal S56x124 .bf16) (X8 : Vec Ideal S1x124 .f32)
    (X4 : Vec Ideal S1x31 .f32)
    (A0 A1 : SBx31.Idx → EReal) (A2 : SBx25.Idx → EReal) (A3 : SBx56.Idx → EReal) (A4 : SW1.Idx → EReal) (A5 : Sb1.Idx → EReal)
    (A6 : SW2.Idx → EReal) (A7 : Sb2.Idx → EReal)
    (p : Fin 2048) (q : Fin 31) (r : Fin 524288)
    (h0 : brow X0 p = rowOf A0 r) (h1 : brow X1 p = rowOf A1 r) (h2 : brow X2 p = rowOf A2 r) (h3 : row0 X3 = c1Of A3)
    (h4 : row0 X4 = c2Of A3) (h5 : tmat X5 = matOf A4) (h6 : row0 X6 = vecOf A5) (h7 : tmat X7 = matOf A6) (h8 : row0 X8 = vecOf A7) :
    k0_pay2 (k0_pay7 X0 X2 X5 X6 X3 X1 X7 X8) (k0_pay8 X0 X2 X5 X6 X3 X1 X7 X8) (k0_pay9 X0 X2 X5 X6 X3 X1 X7 X8) X4 (ix2 p q)
      = outArr A0 A1 A2 A3 A4 A5 A6 A7 (ix2 r q) := by
  rw [out_at, h0, h1, h2, h3, h4, h5, h6, h7, h8]; rfl

/-- The new state entry. -/
theorem ctx_point (X0 : Vec Ideal S2048x31 .f32) (X2 : Vec Ideal S2048x25 .f32) (X5 : Vec Ideal S56x100 .bf16) (X6 : Vec Ideal S1x100 .f32)
    (X3 : Vec Ideal S1x25 .f32) (X1 : Vec Ideal S2048x31 .f32) (X7 : Vec Ideal S56x124 .bf16) (X8 : Vec Ideal S1x124 .f32)
    (X4 : Vec Ideal S1x31 .f32)
    (A0 A1 : SBx31.Idx → EReal) (A2 : SBx25.Idx → EReal) (A3 : SBx56.Idx → EReal) (A4 : SW1.Idx → EReal) (A5 : Sb1.Idx → EReal)
    (A6 : SW2.Idx → EReal) (A7 : Sb2.Idx → EReal)
    (p : Fin 2048) (q : Fin 56) (r : Fin 524288)
    (h0 : brow X0 p = rowOf A0 r) (h1 : brow X1 p = rowOf A1 r) (h2 : brow X2 p = rowOf A2 r) (h3 : row0 X3 = c1Of A3)
    (h4 : row0 X4 = c2Of A3) (h5 : tmat X5 = matOf A4) (h6 : row0 X6 = vecOf A5) (h7 : tmat X7 = matOf A6) (h8 : row0 X8 = vecOf A7) :
    k0_pay3 (k0_pay5 X0 X2 X5 X6 X3) (k0_pay7 X0 X2 X5 X6 X3 X1 X7 X8) (k0_pay8 X0 X2 X5 X6 X3 X1 X7 X8) (k0_pay9 X0 X2 X5 X6 X3 X1 X7 X8) X4 (ix2 p q)
      = ctxArr A0 A1 A2 A3 A4 A5 A6 A7 (ix2 r q) := by
  rw [ctx_at, h0, h1, h2, h3, h4, h5, h6, h7, h8]; rfl

/-! ## The three results: what a point writes, the tiling, the final array -/

/-- The log-softmax block computed at point `t`, at an index `y` of the block, is the spec's array at the array index under `y`:
    row `2048 t + y₀`, column `y₁`. -/
theorem out_block (c : Dev nD) (t : Fin cfg0.N) (y : S2048x31.Idx) :
    k0_pay2 (k0_pay7 (iblk m c 0 t) (iblk m c 2 t) (iblk m c 5 t) (iblk m c 6 t) (iblk m c 3 t) (iblk m c 1 t) (iblk m c 7 t) (iblk m c 8 t)) (k0_pay8 (iblk m c 0 t) (iblk m c 2 t) (iblk m c 5 t) (iblk m c 6 t) (iblk m c 3 t) (iblk m c 1 t) (iblk m c 7 t) (iblk m c 8 t)) (k0_pay9 (iblk m c 0 t) (iblk m c 2 t) (iblk m c 5 t) (iblk m c 6 t) (iblk m c 3 t) (iblk m c 1 t) (iblk m c 7 t) (iblk m c 8 t)) (iblk m c 4 t) y
      = (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (((cfg0.win 9).blk t).view.emb y) := by
  obtain ⟨p, q, rfl⟩ : ∃ (p : Fin 2048) (q : Fin 31), y = ix2 p q := ⟨y 0, y 1, eq_ix2 y⟩
  have hi := idx_facts t
  have hN : cfg0.N = 256 := N_0
  have ht := t.isLt
  have hp := p.isLt
  have hr : 2048 * t.val + p.val < 524288 := by omega
  have he : (((cfg0.win 9).blk t).view.emb (ix2 p q) : S524288x31.Idx) = ix2 (⟨2048 * t.val + p.val, hr⟩ : Fin 524288) q := by
    funext a; apply Fin.ext
    match a with
    | ⟨0, _⟩ => show win0_9.index t (0 : Fin 2) * 2048 + 1 * p.val = 2048 * t.val + p.val; omega
    | ⟨1, _⟩ => show win0_9.index t (1 : Fin 2) * 31 + 1 * q.val = q.val; omega
  refine (out_point _ _ _ _ _ _ _ _ _ _ _ _ _ _ _ _ _ p q ⟨2048 * t.val + p.val, hr⟩ ?_ ?_ ?_ ?_ ?_ ?_ ?_ ?_ ?_).trans (congrArg (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) he.symm)
  · funext k; exact blk0_apply m c t p k _ rfl
  · funext k; exact blk1_apply m c t p k _ rfl
  · funext k; exact blk2_apply m c t p k _ rfl
  · exact (congrArg (row0 (n := 25)) (blk3_eq m c t)).trans (c1_row m c)
  · exact (congrArg (row0 (n := 31)) (blk4_eq m c t)).trans (c2_row m c)
  · exact (congrArg (tmat (n := 100)) (blk5_eq m c t)).trans (w1_mat m c)
  · exact (congrArg (row0 (n := 100)) (blk6_eq m c t)).trans (b1_row m c)
  · exact (congrArg (tmat (n := 124)) (blk7_eq m c t)).trans (w2_mat m c)
  · exact (congrArg (row0 (n := 124)) (blk8_eq m c t)).trans (b2_row m c)

/-- What point `t` writes back to the log-softmax result is block `t` of the spec's array. -/
theorem flushed_out (c : Dev nD) (t : Fin cfg0.N) :
    (dats m 0 c).flushed 9 t = ((cfg0.win 9).blk t).view.read (Elt Ideal) (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed9]
  unfold out0_9
  rw [View.canon_unit_zero hz]
  simp only [View.ld_unit_zero (S := S2048x31) hz, View.ld_unit_zero (S := S2048x25) hz, View.ld_unit_zero (S := S56x100) hz,
    View.ld_unit_zero (S := S1x100) hz, View.ld_unit_zero (S := S1x25) hz, View.ld_unit_zero (S := S56x124) hz,
    View.ld_unit_zero (S := S1x124) hz, View.ld_unit_zero (S := S1x31) hz]
  funext j
  exact out_block m c t j

/-- An index is in point `t`'s block iff each coordinate is in the block's range on its axis. -/
theorem mem_blk_out (t : Fin cfg0.N) (i : S524288x31.Idx) :
    i ∈ ((cfg0.win 9).blk t).view.set ↔ ∀ a : Fin 2, win0_9.index t a * S2048x31.size a ≤ (i a).val ∧ (i a).val < win0_9.index t a * S2048x31.size a + S2048x31.size a := by
  show i ∈ ((View.whole main_v8_0).slice (win0_9.rect t)).set ↔ _
  rw [View.set_slice_whole, Rect.mem_set_unit]
  exact Iff.rfl

/-- The blocks tile the log-softmax result: row `r` lies in the block of point `r / 2048`. -/
theorem cover_out (i : S524288x31.Idx) : ∃ t : Fin cfg0.N, (cfg0.win 9).flush t = true ∧ i ∈ ((cfg0.win 9).blk t).view.set := by
  have hi0 : (i 0).val < 524288 := (i 0).isLt
  have hi1 : (i 1).val < 31 := (i 1).isLt
  have hN : cfg0.N = 256 := N_0
  obtain ⟨t, htv⟩ : ∃ t : Fin cfg0.N, t.val = (i 0).val / 2048 := ⟨⟨(i 0).val / 2048, by omega⟩, rfl⟩
  have hi := idx_facts t
  refine ⟨t, flush0_9 t, ?_⟩
  rw [mem_blk_out]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 31 ≤ (i 1).val ∧ (i 1).val < win0_9.index t (1 : Fin 2) * 31 + 31; omega

/-- So after the last point the log-softmax result is the spec's array. -/
theorem final_out (c : Dev nD) : (dats m 0 c).arrAt 9 cfg0.N = (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (dats m 0 c).arrAt_eq_of_cover 9 (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_out m c t) cover_out

/-- The new hidden block computed at point `t`, at an index `y` of the block, is the spec's array at the array index under `y`:
    row `2048 t + y₀`, column `y₁`. -/
theorem hid_block (c : Dev nD) (t : Fin cfg0.N) (y : S2048x25.Idx) :
    k0_pay6 (iblk m c 0 t) (iblk m c 2 t) (iblk m c 5 t) (iblk m c 6 t) (iblk m c 3 t) y
      = (hidArr (m ((c : Thread nD τ).loc main_arg0)) (m ((c : Thread nD τ).loc main_arg2)) (m ((c : Thread nD τ).loc main_arg3)) (m ((c : Thread nD τ).loc main_arg4)) (m ((c : Thread nD τ).loc main_arg5))) (((cfg0.win 10).blk t).view.emb y) := by
  obtain ⟨p, q, rfl⟩ : ∃ (p : Fin 2048) (q : Fin 25), y = ix2 p q := ⟨y 0, y 1, eq_ix2 y⟩
  have hi := idx_facts t
  have hN : cfg0.N = 256 := N_0
  have ht := t.isLt
  have hp := p.isLt
  have hr : 2048 * t.val + p.val < 524288 := by omega
  have he : (((cfg0.win 10).blk t).view.emb (ix2 p q) : S524288x25.Idx) = ix2 (⟨2048 * t.val + p.val, hr⟩ : Fin 524288) q := by
    funext a; apply Fin.ext
    match a with
    | ⟨0, _⟩ => show win0_10.index t (0 : Fin 2) * 2048 + 1 * p.val = 2048 * t.val + p.val; omega
    | ⟨1, _⟩ => show win0_10.index t (1 : Fin 2) * 25 + 1 * q.val = q.val; omega
  refine (hid_point _ _ _ _ _ _ _ _ _ _ p q ⟨2048 * t.val + p.val, hr⟩ ?_ ?_ ?_ ?_ ?_).trans (congrArg (hidArr (m ((c : Thread nD τ).loc main_arg0)) (m ((c : Thread nD τ).loc main_arg2)) (m ((c : Thread nD τ).loc main_arg3)) (m ((c : Thread nD τ).loc main_arg4)) (m ((c : Thread nD τ).loc main_arg5))) he.symm)
  · funext k; exact blk0_apply m c t p k _ rfl
  · funext k; exact blk2_apply m c t p k _ rfl
  · exact (congrArg (row0 (n := 25)) (blk3_eq m c t)).trans (c1_row m c)
  · exact (congrArg (tmat (n := 100)) (blk5_eq m c t)).trans (w1_mat m c)
  · exact (congrArg (row0 (n := 100)) (blk6_eq m c t)).trans (b1_row m c)

/-- What point `t` writes back to the new hidden result is block `t` of the spec's array. -/
theorem flushed_hid (c : Dev nD) (t : Fin cfg0.N) :
    (dats m 0 c).flushed 10 t = ((cfg0.win 10).blk t).view.read (Elt Ideal) (hidArr (m ((c : Thread nD τ).loc main_arg0)) (m ((c : Thread nD τ).loc main_arg2)) (m ((c : Thread nD τ).loc main_arg3)) (m ((c : Thread nD τ).loc main_arg4)) (m ((c : Thread nD τ).loc main_arg5))) := by
  rw [Value.flushed10]
  unfold out0_10
  rw [View.canon_unit_zero hz]
  simp only [View.ld_unit_zero (S := S2048x31) hz, View.ld_unit_zero (S := S2048x25) hz, View.ld_unit_zero (S := S56x100) hz,
    View.ld_unit_zero (S := S1x100) hz, View.ld_unit_zero (S := S1x25) hz]
  funext j
  exact hid_block m c t j

/-- An index is in point `t`'s block iff each coordinate is in the block's range on its axis. -/
theorem mem_blk_hid (t : Fin cfg0.N) (i : S524288x25.Idx) :
    i ∈ ((cfg0.win 10).blk t).view.set ↔ ∀ a : Fin 2, win0_10.index t a * S2048x25.size a ≤ (i a).val ∧ (i a).val < win0_10.index t a * S2048x25.size a + S2048x25.size a := by
  show i ∈ ((View.whole main_v8_1).slice (win0_10.rect t)).set ↔ _
  rw [View.set_slice_whole, Rect.mem_set_unit]
  exact Iff.rfl

/-- The blocks tile the new hidden result: row `r` lies in the block of point `r / 2048`. -/
theorem cover_hid (i : S524288x25.Idx) : ∃ t : Fin cfg0.N, (cfg0.win 10).flush t = true ∧ i ∈ ((cfg0.win 10).blk t).view.set := by
  have hi0 : (i 0).val < 524288 := (i 0).isLt
  have hi1 : (i 1).val < 25 := (i 1).isLt
  have hN : cfg0.N = 256 := N_0
  obtain ⟨t, htv⟩ : ∃ t : Fin cfg0.N, t.val = (i 0).val / 2048 := ⟨⟨(i 0).val / 2048, by omega⟩, rfl⟩
  have hi := idx_facts t
  refine ⟨t, flush0_10 t, ?_⟩
  rw [mem_blk_hid]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 25 ≤ (i 1).val ∧ (i 1).val < win0_10.index t (1 : Fin 2) * 25 + 25; omega

/-- So after the last point the new hidden result is the spec's array. -/
theorem final_hid (c : Dev nD) : (dats m 0 c).arrAt 10 cfg0.N = (hidArr (m ((c : Thread nD τ).loc main_arg0)) (m ((c : Thread nD τ).loc main_arg2)) (m ((c : Thread nD τ).loc main_arg3)) (m ((c : Thread nD τ).loc main_arg4)) (m ((c : Thread nD τ).loc main_arg5))) :=
  (dats m 0 c).arrAt_eq_of_cover 10 (hidArr (m ((c : Thread nD τ).loc main_arg0)) (m ((c : Thread nD τ).loc main_arg2)) (m ((c : Thread nD τ).loc main_arg3)) (m ((c : Thread nD τ).loc main_arg4)) (m ((c : Thread nD τ).loc main_arg5))) (fun t _ => flushed_hid m c t) cover_hid

/-- The new state block computed at point `t`, at an index `y` of the block, is the spec's array at the array index under `y`:
    row `2048 t + y₀`, column `y₁`. -/
theorem ctx_block (c : Dev nD) (t : Fin cfg0.N) (y : S2048x56.Idx) :
    k0_pay3 (k0_pay5 (iblk m c 0 t) (iblk m c 2 t) (iblk m c 5 t) (iblk m c 6 t) (iblk m c 3 t)) (k0_pay7 (iblk m c 0 t) (iblk m c 2 t) (iblk m c 5 t) (iblk m c 6 t) (iblk m c 3 t) (iblk m c 1 t) (iblk m c 7 t) (iblk m c 8 t)) (k0_pay8 (iblk m c 0 t) (iblk m c 2 t) (iblk m c 5 t) (iblk m c 6 t) (iblk m c 3 t) (iblk m c 1 t) (iblk m c 7 t) (iblk m c 8 t)) (k0_pay9 (iblk m c 0 t) (iblk m c 2 t) (iblk m c 5 t) (iblk m c 6 t) (iblk m c 3 t) (iblk m c 1 t) (iblk m c 7 t) (iblk m c 8 t)) (iblk m c 4 t) y
      = (ctxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (((cfg0.win 11).blk t).view.emb y) := by
  obtain ⟨p, q, rfl⟩ : ∃ (p : Fin 2048) (q : Fin 56), y = ix2 p q := ⟨y 0, y 1, eq_ix2 y⟩
  have hi := idx_facts t
  have hN : cfg0.N = 256 := N_0
  have ht := t.isLt
  have hp := p.isLt
  have hr : 2048 * t.val + p.val < 524288 := by omega
  have he : (((cfg0.win 11).blk t).view.emb (ix2 p q) : S524288x56.Idx) = ix2 (⟨2048 * t.val + p.val, hr⟩ : Fin 524288) q := by
    funext a; apply Fin.ext
    match a with
    | ⟨0, _⟩ => show win0_11.index t (0 : Fin 2) * 2048 + 1 * p.val = 2048 * t.val + p.val; omega
    | ⟨1, _⟩ => show win0_11.index t (1 : Fin 2) * 56 + 1 * q.val = q.val; omega
  refine (ctx_point _ _ _ _ _ _ _ _ _ _ _ _ _ _ _ _ _ p q ⟨2048 * t.val + p.val, hr⟩ ?_ ?_ ?_ ?_ ?_ ?_ ?_ ?_ ?_).trans (congrArg (ctxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) he.symm)
  · funext k; exact blk0_apply m c t p k _ rfl
  · funext k; exact blk1_apply m c t p k _ rfl
  · funext k; exact blk2_apply m c t p k _ rfl
  · exact (congrArg (row0 (n := 25)) (blk3_eq m c t)).trans (c1_row m c)
  · exact (congrArg (row0 (n := 31)) (blk4_eq m c t)).trans (c2_row m c)
  · exact (congrArg (tmat (n := 100)) (blk5_eq m c t)).trans (w1_mat m c)
  · exact (congrArg (row0 (n := 100)) (blk6_eq m c t)).trans (b1_row m c)
  · exact (congrArg (tmat (n := 124)) (blk7_eq m c t)).trans (w2_mat m c)
  · exact (congrArg (row0 (n := 124)) (blk8_eq m c t)).trans (b2_row m c)

/-- What point `t` writes back to the new state result is block `t` of the spec's array. -/
theorem flushed_ctx (c : Dev nD) (t : Fin cfg0.N) :
    (dats m 0 c).flushed 11 t = ((cfg0.win 11).blk t).view.read (Elt Ideal) (ctxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed11]
  unfold out0_11
  rw [View.canon_unit_zero hz]
  simp only [View.ld_unit_zero (S := S2048x31) hz, View.ld_unit_zero (S := S2048x25) hz, View.ld_unit_zero (S := S56x100) hz,
    View.ld_unit_zero (S := S1x100) hz, View.ld_unit_zero (S := S1x25) hz, View.ld_unit_zero (S := S56x124) hz,
    View.ld_unit_zero (S := S1x124) hz, View.ld_unit_zero (S := S1x31) hz]
  funext j
  exact ctx_block m c t j

/-- An index is in point `t`'s block iff each coordinate is in the block's range on its axis. -/
theorem mem_blk_ctx (t : Fin cfg0.N) (i : S524288x56.Idx) :
    i ∈ ((cfg0.win 11).blk t).view.set ↔ ∀ a : Fin 2, win0_11.index t a * S2048x56.size a ≤ (i a).val ∧ (i a).val < win0_11.index t a * S2048x56.size a + S2048x56.size a := by
  show i ∈ ((View.whole main_v8_2).slice (win0_11.rect t)).set ↔ _
  rw [View.set_slice_whole, Rect.mem_set_unit]
  exact Iff.rfl

/-- The blocks tile the new state result: row `r` lies in the block of point `r / 2048`. -/
theorem cover_ctx (i : S524288x56.Idx) : ∃ t : Fin cfg0.N, (cfg0.win 11).flush t = true ∧ i ∈ ((cfg0.win 11).blk t).view.set := by
  have hi0 : (i 0).val < 524288 := (i 0).isLt
  have hi1 : (i 1).val < 56 := (i 1).isLt
  have hN : cfg0.N = 256 := N_0
  obtain ⟨t, htv⟩ : ∃ t : Fin cfg0.N, t.val = (i 0).val / 2048 := ⟨⟨(i 0).val / 2048, by omega⟩, rfl⟩
  have hi := idx_facts t
  refine ⟨t, flush0_11 t, ?_⟩
  rw [mem_blk_ctx]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 56 ≤ (i 1).val ∧ (i 1).val < win0_11.index t (1 : Fin 2) * 56 + 56; omega

/-- So after the last point the new state result is the spec's array. -/
theorem final_ctx (c : Dev nD) : (dats m 0 c).arrAt 11 cfg0.N = (ctxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (dats m 0 c).arrAt_eq_of_cover 11 (ctxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_ctx m c t) cover_ctx

/-! ## The run -/

/-- The kernel's run with its three result arrays named as the spec's functions of the eight arguments, the arguments
    unchanged. -/
theorem run :
    θ_run (defs (F := Ideal)) (onTc (τ := τ) (main (F := Ideal))) ⟨m, fun _ => 0, ρ⟩ fun r => ∀ c : Dev nD,
      r.2.mem ((c : Thread nD τ).loc main_v8_0) = (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      ∧ r.2.mem ((c : Thread nD τ).loc main_v8_1) = (hidArr (m ((c : Thread nD τ).loc main_arg0)) (m ((c : Thread nD τ).loc main_arg2)) (m ((c : Thread nD τ).loc main_arg3)) (m ((c : Thread nD τ).loc main_arg4)) (m ((c : Thread nD τ).loc main_arg5)))
      ∧ r.2.mem ((c : Thread nD τ).loc main_v8_2) = (ctxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_out m c), (h c).2.1.trans (final_hid m c),
      (h c).2.2.1.trans (final_ctx m c), (h c).2.2.2⟩)
    (Value.run_blocks m ρ)

end Cert.KernelIdeal.Arrays

end
-- ==== Proof.RefRows.lean ====
/-
  The reference program, read row by row.

  Each of the reference's three results, at an index (r, q), is the corresponding row function of the
  two-cell specification applied to row r of the batch arguments and to the shared small arrays. The
  reading goes stage by stage: the joined input row, the gate pre-activations (a contraction over the 56
  joined entries plus the bias), the four gates of each cell, the cell's new state and output, and last
  the log-softmax of the second cell's output. Sums are only re-indexed; no law that needs finite values
  is used.
-/
import proofs.«137660_j37933151158488_1_alg».proof.Proof.RefRead
import proofs.«137660_j37933151158488_1_alg».proof.Proof.TwoCellSpec
import Idealize.ShloMosaic.Lib.ValueIdx
import Idealize.ShloMosaic.Lib.Pipeline.Value
import Idealize.ShloMosaic.PureOps.Ideal.Laws
import Idealize.ShloMosaic.Lib.IdealHost
import Idealize.ShloMosaic.PureOps.Reduce

noncomputable section

open scoped BigOperators

namespace Cert.ReferenceIdeal.RefRows

open Cert.ReferenceIdeal Cert.ReferenceIdeal.Gen Cert.ReferenceIdeal.ReadP Idealize.ShloMosaic Idealize.ShloMosaic.ValueIdx Cert.TwoCell

/-! ## Joining two arrays along the row, and a row's maximum -/

/-- An array of 31 columns followed by one of 25, at (r, k): the joined row at k. -/
theorem concat_31_25 (A : SBx31.Idx → EReal) (B : SBx25.Idx → EReal)
    (h : Shape.Concatenates [SBx31, SBx25] SBx56 1) (r : Fin 524288) (k : Fin 56) :
    concatenate SBx56 1 [⟨SBx31, A⟩, ⟨SBx25, B⟩] h (ix2 r k) = join31_25 (rowOf A r) (rowOf B r) k := by
  unfold join31_25
  split
  · next hk =>
    exact concatenate_pair_apply_left 1 A B h (ix2 r k) rfl (ix2 r ⟨k.val, hk⟩)
      (fun b => by match b with | ⟨0, _⟩ => rfl | ⟨1, _⟩ => rfl)
  · next hk =>
    exact concatenate_pair_apply_right 1 A B h (ix2 r k) rfl rfl (ix2 r ⟨k.val - 31, by have := k.isLt; omega⟩)
      (fun b hb => by match b, hb with | ⟨0, _⟩, _ => rfl | ⟨1, _⟩, hb => exact absurd (Fin.ext rfl) hb)
      (by show (k.val - 31) + 31 = k.val; omega)

/-- An array of 25 columns followed by one of 31, at (r, k): the joined row at k. -/
theorem concat_25_31 (A : SBx25.Idx → EReal) (B : SBx31.Idx → EReal)
    (h : Shape.Concatenates [SBx25, SBx31] SBx56 1) (r : Fin 524288) (k : Fin 56) :
    concatenate SBx56 1 [⟨SBx25, A⟩, ⟨SBx31, B⟩] h (ix2 r k) = join25_31 (rowOf A r) (rowOf B r) k := by
  unfold join25_31
  split
  · next hk =>
    exact concatenate_pair_apply_left 1 A B h (ix2 r k) rfl (ix2 r ⟨k.val, hk⟩)
      (fun b => by match b with | ⟨0, _⟩ => rfl | ⟨1, _⟩ => rfl)
  · next hk =>
    exact concatenate_pair_apply_right 1 A B h (ix2 r k) rfl rfl (ix2 r ⟨k.val - 25, by have := k.isLt; omega⟩)
      (fun b hb => by match b, hb with | ⟨0, _⟩, _ => rfl | ⟨1, _⟩, hb => exact absurd (Fin.ext rfl) hb)
      (by show (k.val - 25) + 25 = k.val; omega)

/-- The maximum-reduction over the columns, started from −∞, at row r: the row's maximum. The fold over
    the columns is free of the order because max is commutative and associative. -/
theorem reduce_max_row (X : SBx31.Idx → EReal) (init : (⟨0, ![]⟩ : Shape).Idx → EReal)
    (h' : SBx31.ReducesTo [1] ⟨1, ![524288]⟩) (hu : 0 < (⟨0, ![]⟩ : Shape).numel)
    (hinit : ∀ i, init i = ⊥) (r : Fin 524288) :
    Host.reduce (FloatOps.maximumf (F := Ideal) (φ := .f32)) X init h' hu (ix1 r) = rowMax (rowOf X r) := by
  have h : SBx31.Reduces [1] ⟨1, ![524288]⟩ := by decide
  refine (Host.reduce_eq_fold_single _ X init h' h hu (ix1 r)).trans ?_
  rw [hinit]
  have e : X ∘ h.lift (ix1 r) = rowOf X r := funext fun k =>
    congrArg X (funext fun a => Fin.ext (by match a with | ⟨0, _⟩ => rfl | ⟨1, _⟩ => rfl))
  rw [e]
  rfl

/-- The constant 1 the reference broadcasts. -/
theorem one_word : FloatOps.ofBits (F := Ideal) .f32 0x3F800000#32 = (1 : EReal) := Ideal.ofBits_one_f32

/-- The constant −∞ the reference starts its maximum from. -/
theorem ninf_word : FloatOps.ofBits (F := Ideal) .f32 0xFF800000#32 = (⊥ : EReal) := by
  simp [Ideal.ofBits, Ideal.ieee]

/-- The constant 0 the reference starts its sum from. -/
theorem zero_word : FloatOps.ofBits (F := Ideal) .f32 0x00000000#32 = (0 : EReal) := Ideal.ofBits_zero_f32

variable (x0 x1 : (⟨S524288x31, .f32⟩ : BufTy).Contents (Elt Ideal)) (x2 : (⟨S524288x25, .f32⟩ : BufTy).Contents (Elt Ideal))
  (x3 : (⟨S524288x56, .f32⟩ : BufTy).Contents (Elt Ideal)) (x4 : (⟨S100x56, .f32⟩ : BufTy).Contents (Elt Ideal))
  (x5 : (⟨S100, .f32⟩ : BufTy).Contents (Elt Ideal)) (x6 : (⟨S124x56, .f32⟩ : BufTy).Contents (Elt Ideal))
  (x7 : (⟨S124, .f32⟩ : BufTy).Contents (Elt Ideal))

/-! ## The first cell -/

/-- The first cell's gate pre-activation j of row r. -/
theorem pre1_at (r : Fin 524288) (j : Fin 100) :
    val_main_v9 (F := Ideal) x0 x2 x4 x5 (ix2 r j)
      = pre (join31_25 (rowOf x0 r) (rowOf x2 r)) (matOf x4) (vecOf x5) j := by
  rw [val_main_v9_apply, val_main_v6_apply, val_main_v8_apply, val_main_v7_apply]
  unfold pre
  refine congrArg₂ (fun a b : EReal => a + b) (Finset.sum_congr rfl fun k _ => ?_) ?_
  · have el : lidx_main_v6 (ix2 r j) k = ix2 r k :=
      funext fun a => Fin.ext (by match a with | ⟨0, _⟩ => rfl | ⟨1, _⟩ => rfl)
    have er : idx_main_v5 (ridx_main_v6 (ix2 r j) k) = ix2 j k :=
      funext fun a => Fin.ext (by match a with | ⟨0, _⟩ => rfl | ⟨1, _⟩ => rfl)
    rw [el, val_main_v5_apply, er]
    refine congrArg (fun a : EReal => a * x4 (ix2 j k)) ?_
    unfold val_main_v4
    exact concat_31_25 x0 x2 _ r k
  · exact congrArg x5 (funext fun a => Fin.ext (by match a with | ⟨0, _⟩ => rfl))

/-- The forget gate of the first cell: the logistic function of pre-activation q. -/
theorem f1_at (r : Fin 524288) (q : Fin 25) :
    val_main_v19 (F := Ideal) x0 x2 x4 x5 (ix2 r q)
      = Ideal.logistic (pre (join31_25 (rowOf x0 r) (rowOf x2 r)) (matOf x4) (vecOf x5) ⟨q.val, by have := q.isLt; omega⟩) := by
  have e : idx_main_v10 (ix2 r q) = ix2 r (⟨q.val, by have := q.isLt; omega⟩ : Fin 100) :=
    funext fun a => Fin.ext (by match a with | ⟨0, _⟩ => rfl | ⟨1, _⟩ => rfl)
  rw [val_main_v19_apply, val_main_v18_apply, val_main_cst_0_apply, val_main_v17_apply, val_main_v16_apply,
    val_main_cst_apply, val_main_v15_apply, val_main_v14_apply, val_main_v10_apply, e, pre1_at, one_word]
  rfl

/-- The input gate of the first cell: the logistic function of pre-activation q + 25. -/
theorem i1_at (r : Fin 524288) (q : Fin 25) :
    val_main_v25 (F := Ideal) x0 x2 x4 x5 (ix2 r q)
      = Ideal.logistic (pre (join31_25 (rowOf x0 r) (rowOf x2 r)) (matOf x4) (vecOf x5) ⟨q.val + 25, by have := q.isLt; omega⟩) := by
  have e : idx_main_v11 (ix2 r q) = ix2 r (⟨q.val + 25, by have := q.isLt; omega⟩ : Fin 100) :=
    funext fun a => Fin.ext (by match a with | ⟨0, _⟩ => rfl | ⟨1, _⟩ => exact Nat.add_comm 25 q.val)
  rw [val_main_v25_apply, val_main_v24_apply, val_main_cst_2_apply, val_main_v23_apply, val_main_v22_apply,
    val_main_cst_1_apply, val_main_v21_apply, val_main_v20_apply, val_main_v11_apply, e, pre1_at, one_word]
  rfl

/-- The candidate of the first cell: the hyperbolic tangent of pre-activation q + 50. -/
theorem g1_at (r : Fin 524288) (q : Fin 25) :
    val_main_v26 (F := Ideal) x0 x2 x4 x5 (ix2 r q)
      = Ideal.tanh (pre (join31_25 (rowOf x0 r) (rowOf x2 r)) (matOf x4) (vecOf x5) ⟨q.val + 50, by have := q.isLt; omega⟩) := by
  have e : idx_main_v12 (ix2 r q) = ix2 r (⟨q.val + 50, by have := q.isLt; omega⟩ : Fin 100) :=
    funext fun a => Fin.ext (by match a with | ⟨0, _⟩ => rfl | ⟨1, _⟩ => exact Nat.add_comm 50 q.val)
  rw [val_main_v26_apply, val_main_v12_apply, e, pre1_at]
  rfl

/-- The output gate of the first cell: the logistic function of pre-activation q + 75. -/
theorem o1_at (r : Fin 524288) (q : Fin 25) :
    val_main_v32 (F := Ideal) x0 x2 x4 x5 (ix2 r q)
      = Ideal.logistic (pre (join31_25 (rowOf x0 r) (rowOf x2 r)) (matOf x4) (vecOf x5) ⟨q.val + 75, by have := q.isLt; omega⟩) := by
  have e : idx_main_v13 (ix2 r q) = ix2 r (⟨q.val + 75, by have := q.isLt; omega⟩ : Fin 100) :=
    funext fun a => Fin.ext (by match a with | ⟨0, _⟩ => rfl | ⟨1, _⟩ => exact Nat.add_comm 75 q.val)
  rw [val_main_v32_apply, val_main_v31_apply, val_main_cst_4_apply, val_main_v30_apply, val_main_v29_apply,
    val_main_cst_3_apply, val_main_v28_apply, val_main_v27_apply, val_main_v13_apply, e, pre1_at, one_word]
  rfl

/-- The first cell's old state, broadcast over the rows: entry q of row 0 of the state array. -/
theorem c1_at (r : Fin 524288) (q : Fin 25) : val_main_v34 (F := Ideal) x3 (ix2 r q) = c1Of x3 q := by
  rw [val_main_v34_apply, val_main_v33_apply, val_main_v1_apply, val_main_v0_apply]
  exact congrArg x3 (funext fun a => Fin.ext (by
    match a with
    | ⟨0, _⟩ => rfl
    | ⟨1, _⟩ => exact Nat.mod_eq_of_lt q.isLt))

/-- The first cell's new state at (r, q). -/
theorem ctx1_at (r : Fin 524288) (q : Fin 25) :
    val_main_v37 (F := Ideal) x0 x2 x3 x4 x5 (ix2 r q)
      = ctx1 (join31_25 (rowOf x0 r) (rowOf x2 r)) (c1Of x3) (matOf x4) (vecOf x5) q := by
  rw [val_main_v37_apply, val_main_v35_apply, val_main_v36_apply, c1_at, f1_at, i1_at, g1_at]
  rfl

/-- The first cell's output, the new hidden row, at (r, q). -/
theorem hid_at (r : Fin 524288) (q : Fin 25) :
    val_main_v39 (F := Ideal) x0 x2 x3 x4 x5 (ix2 r q)
      = hid1 (join31_25 (rowOf x0 r) (rowOf x2 r)) (c1Of x3) (matOf x4) (vecOf x5) q := by
  rw [val_main_v39_apply, val_main_v38_apply, ctx1_at, o1_at]
  rfl

/-! ## The second cell -/

/-- The second cell's input row: the first cell's output followed by the previous-output row. -/
theorem u2_at (r : Fin 524288) (k : Fin 56) :
    val_main_v40 (F := Ideal) x0 x1 x2 x3 x4 x5 (ix2 r k)
      = u2 (rowOf x0 r) (rowOf x2 r) (rowOf x1 r) (c1Of x3) (matOf x4) (vecOf x5) k := by
  unfold val_main_v40
  refine (concat_25_31 (val_main_v39 (F := Ideal) x0 x2 x3 x4 x5) x1 _ r k).trans ?_
  unfold u2
  exact congrArg (fun f => join25_31 f (rowOf x1 r) k) (funext fun q => hid_at x0 x2 x3 x4 x5 r q)

/-- The second cell's gate pre-activation j of row r. -/
theorem pre2_at (r : Fin 524288) (j : Fin 124) :
    val_main_v45 (F := Ideal) x0 x1 x2 x3 x4 x5 x6 x7 (ix2 r j)
      = pre (u2 (rowOf x0 r) (rowOf x2 r) (rowOf x1 r) (c1Of x3) (matOf x4) (vecOf x5)) (matOf x6) (vecOf x7) j := by
  rw [val_main_v45_apply, val_main_v42_apply, val_main_v44_apply, val_main_v43_apply]
  unfold pre
  refine congrArg₂ (fun a b : EReal => a + b) (Finset.sum_congr rfl fun k _ => ?_) ?_
  · have el : lidx_main_v42 (ix2 r j) k = ix2 r k :=
      funext fun a => Fin.ext (by match a with | ⟨0, _⟩ => rfl | ⟨1, _⟩ => rfl)
    have er : idx_main_v41 (ridx_main_v42 (ix2 r j) k) = ix2 j k :=
      funext fun a => Fin.ext (by match a with | ⟨0, _⟩ => rfl | ⟨1, _⟩ => rfl)
    rw [el, val_main_v41_apply, er, u2_at]
  · exact congrArg x7 (funext fun a => Fin.ext (by match a with | ⟨0, _⟩ => rfl))

/-- The forget gate of the second cell. -/
theorem f2_at (r : Fin 524288) (q : Fin 31) :
    val_main_v55 (F := Ideal) x0 x1 x2 x3 x4 x5 x6 x7 (ix2 r q)
      = Ideal.logistic (pre (u2 (rowOf x0 r) (rowOf x2 r) (rowOf x1 r) (c1Of x3) (matOf x4) (vecOf x5)) (matOf x6) (vecOf x7)
          ⟨q.val, by have := q.isLt; omega⟩) := by
  have e : idx_main_v46 (ix2 r q) = ix2 r (⟨q.val, by have := q.isLt; omega⟩ : Fin 124) :=
    funext fun a => Fin.ext (by match a with | ⟨0, _⟩ => rfl | ⟨1, _⟩ => rfl)
  rw [val_main_v55_apply, val_main_v54_apply, val_main_cst_6_apply, val_main_v53_apply, val_main_v52_apply,
    val_main_cst_5_apply, val_main_v51_apply, val_main_v50_apply, val_main_v46_apply, e, pre2_at, one_word]
  rfl

/-- The input gate of the second cell. -/
theorem i2_at (r : Fin 524288) (q : Fin 31) :
    val_main_v61 (F := Ideal) x0 x1 x2 x3 x4 x5 x6 x7 (ix2 r q)
      = Ideal.logistic (pre (u2 (rowOf x0 r) (rowOf x2 r) (rowOf x1 r) (c1Of x3) (matOf x4) (vecOf x5)) (matOf x6) (vecOf x7)
          ⟨q.val + 31, by have := q.isLt; omega⟩) := by
  have e : idx_main_v47 (ix2 r q) = ix2 r (⟨q.val + 31, by have := q.isLt; omega⟩ : Fin 124) :=
    funext fun a => Fin.ext (by match a with | ⟨0, _⟩ => rfl | ⟨1, _⟩ => exact Nat.add_comm 31 q.val)
  rw [val_main_v61_apply, val_main_v60_apply, val_main_cst_8_apply, val_main_v59_apply, val_main_v58_apply,
    val_main_cst_7_apply, val_main_v57_apply, val_main_v56_apply, val_main_v47_apply, e, pre2_at, one_word]
  rfl

/-- The candidate of the second cell. -/
theorem g2_at (r : Fin 524288) (q : Fin 31) :
    val_main_v62 (F := Ideal) x0 x1 x2 x3 x4 x5 x6 x7 (ix2 r q)
      = Ideal.tanh (pre (u2 (rowOf x0 r) (rowOf x2 r) (rowOf x1 r) (c1Of x3) (matOf x4) (vecOf x5)) (matOf x6) (vecOf x7)
          ⟨q.val + 62, by have := q.isLt; omega⟩) := by
  have e : idx_main_v48 (ix2 r q) = ix2 r (⟨q.val + 62, by have := q.isLt; omega⟩ : Fin 124) :=
    funext fun a => Fin.ext (by match a with | ⟨0, _⟩ => rfl | ⟨1, _⟩ => exact Nat.add_comm 62 q.val)
  rw [val_main_v62_apply, val_main_v48_apply, e, pre2_at]
  rfl

/-- The output gate of the second cell. -/
theorem o2_at (r : Fin 524288) (q : Fin 31) :
    val_main_v68 (F := Ideal) x0 x1 x2 x3 x4 x5 x6 x7 (ix2 r q)
      = Ideal.logistic (pre (u2 (rowOf x0 r) (rowOf x2 r) (rowOf x1 r) (c1Of x3) (matOf x4) (vecOf x5)) (matOf x6) (vecOf x7)
          ⟨q.val + 93, by have := q.isLt; omega⟩) := by
  have e : idx_main_v49 (ix2 r q) = ix2 r (⟨q.val + 93, by have := q.isLt; omega⟩ : Fin 124) :=
    funext fun a => Fin.ext (by match a with | ⟨0, _⟩ => rfl | ⟨1, _⟩ => exact Nat.add_comm 93 q.val)
  rw [val_main_v68_apply, val_main_v67_apply, val_main_cst_10_apply, val_main_v66_apply, val_main_v65_apply,
    val_main_cst_9_apply, val_main_v64_apply, val_main_v63_apply, val_main_v49_apply, e, pre2_at, one_word]
  rfl

/-- The second cell's old state, broadcast over the rows: entry q + 25 of row 0 of the state array. -/
theorem c2_at (r : Fin 524288) (q : Fin 31) : val_main_v70 (F := Ideal) x3 (ix2 r q) = c2Of x3 q := by
  rw [val_main_v70_apply, val_main_v69_apply, val_main_v3_apply, val_main_v2_apply]
  exact congrArg x3 (funext fun a => Fin.ext (by
    match a with
    | ⟨0, _⟩ => rfl
    | ⟨1, _⟩ =>
      show 25 + q.val % 31 = q.val + 25
      rw [Nat.mod_eq_of_lt q.isLt, Nat.add_comm]))

/-- The second cell's new state at (r, q). -/
theorem ctx2_at (r : Fin 524288) (q : Fin 31) :
    val_main_v73 (F := Ideal) x0 x1 x2 x3 x4 x5 x6 x7 (ix2 r q)
      = ctx2 (u2 (rowOf x0 r) (rowOf x2 r) (rowOf x1 r) (c1Of x3) (matOf x4) (vecOf x5)) (c2Of x3) (matOf x6) (vecOf x7) q := by
  rw [val_main_v73_apply, val_main_v71_apply, val_main_v72_apply, c2_at, f2_at, i2_at, g2_at]
  rfl

/-- The second cell's output, before the log-softmax, at (r, q). -/
theorem out2_at (r : Fin 524288) (q : Fin 31) :
    val_main_v75 (F := Ideal) x0 x1 x2 x3 x4 x5 x6 x7 (ix2 r q)
      = out2 (u2 (rowOf x0 r) (rowOf x2 r) (rowOf x1 r) (c1Of x3) (matOf x4) (vecOf x5)) (c2Of x3) (matOf x6) (vecOf x7) q := by
  rw [val_main_v75_apply, val_main_v74_apply, ctx2_at, o2_at]
  rfl

/-- Row r of the second cell's output array. -/
theorem out2_row (r : Fin 524288) :
    rowOf (val_main_v75 (F := Ideal) x0 x1 x2 x3 x4 x5 x6 x7) r
      = out2 (u2 (rowOf x0 r) (rowOf x2 r) (rowOf x1 r) (c1Of x3) (matOf x4) (vecOf x5)) (c2Of x3) (matOf x6) (vecOf x7) :=
  funext fun q => out2_at x0 x1 x2 x3 x4 x5 x6 x7 r q

/-! ## The log-softmax -/

/-- The maximum the reference subtracts, at row r: the maximum of −∞ and the row's maximum, the row's maximum. -/
theorem max_at (r : Fin 524288) :
    val_main_call0_v2 (F := Ideal) x0 x1 x2 x3 x4 x5 x6 x7 (ix1 r)
      = rowMax (out2 (u2 (rowOf x0 r) (rowOf x2 r) (rowOf x1 r) (c1Of x3) (matOf x4) (vecOf x5)) (c2Of x3) (matOf x6) (vecOf x7)) := by
  rw [val_main_call0_v2_apply, val_main_call0_v1_apply, val_main_call0_cst_0_apply, ninf_word]
  unfold val_main_call0_v0
  rw [reduce_max_row (val_main_v75 (F := Ideal) x0 x1 x2 x3 x4 x5 x6 x7) (val_main_call0_cst (F := Ideal)) _ _
    (fun i => (val_main_call0_cst_apply (F := Ideal) i).trans ninf_word) r, out2_row]
  exact max_eq_right bot_le

/-- The shifted row at (r, q): the second cell's output less the row's maximum. -/
theorem shifted_at (r : Fin 524288) (q : Fin 31) :
    val_main_call0_v5 (F := Ideal) x0 x1 x2 x3 x4 x5 x6 x7 (ix2 r q)
      = out2 (u2 (rowOf x0 r) (rowOf x2 r) (rowOf x1 r) (c1Of x3) (matOf x4) (vecOf x5)) (c2Of x3) (matOf x6) (vecOf x7) q
        - rowMax (out2 (u2 (rowOf x0 r) (rowOf x2 r) (rowOf x1 r) (c1Of x3) (matOf x4) (vecOf x5)) (c2Of x3) (matOf x6) (vecOf x7)) := by
  have e : idx_main_call0_v3 (idx_main_call0_v4 (ix2 r q)) = ix1 r :=
    funext fun a => Fin.ext (by match a with | ⟨0, _⟩ => rfl)
  rw [val_main_call0_v5_apply, val_main_call0_v4_apply, val_main_call0_v3_apply, e, max_at, out2_at]
  rfl

/-- The sum of the exponentials of the shifted row r. -/
theorem sum_at (r : Fin 524288) :
    val_main_call0_v7 (F := Ideal) x0 x1 x2 x3 x4 x5 x6 x7 (ix1 r)
      = ∑ k : Fin 31, Ideal.exp
          (out2 (u2 (rowOf x0 r) (rowOf x2 r) (rowOf x1 r) (c1Of x3) (matOf x4) (vecOf x5)) (c2Of x3) (matOf x6) (vecOf x7) k
            - rowMax (out2 (u2 (rowOf x0 r) (rowOf x2 r) (rowOf x1 r) (c1Of x3) (matOf x4) (vecOf x5)) (c2Of x3) (matOf x6) (vecOf x7))) := by
  rw [val_main_call0_v7_apply, val_main_call0_cst_1_apply, zero_word, zero_add]
  refine Finset.sum_congr rfl fun k _ => ?_
  have e : idx_main_call0_v7 (ix1 r) k = ix2 r k :=
    funext fun a => Fin.ext (by match a with | ⟨0, _⟩ => rfl | ⟨1, _⟩ => rfl)
  rw [val_main_call0_v6_apply, e, shifted_at]
  rfl

/-- The log-softmax result at (r, q). -/
theorem out_at (r : Fin 524288) (q : Fin 31) :
    val_main_v76 (F := Ideal) x0 x1 x2 x3 x4 x5 x6 x7 (ix2 r q)
      = outRow (rowOf x0 r) (rowOf x2 r) (rowOf x1 r) (c1Of x3) (c2Of x3) (matOf x4) (vecOf x5) (matOf x6) (vecOf x7) q := by
  have e : idx_main_call0_v8 (idx_main_call0_v10 (ix2 r q)) = ix1 r :=
    funext fun a => Fin.ext (by match a with | ⟨0, _⟩ => rfl)
  rw [val_main_v76_apply, val_main_call0_v10_apply, val_main_call0_v9_apply, val_main_call0_v8_apply, e, sum_at, shifted_at]
  rfl

/-! ## The three results -/

/-- Result 0: the log-softmax output. -/
theorem ref_out : val_main_v76 (F := Ideal) x0 x1 x2 x3 x4 x5 x6 x7 = outArr x0 x1 x2 x3 x4 x5 x6 x7 := by
  funext i
  obtain ⟨r, q, rfl⟩ : ∃ (r : Fin 524288) (q : Fin 31), i = ix2 r q := ⟨i 0, i 1, eq_ix2 i⟩
  exact out_at x0 x1 x2 x3 x4 x5 x6 x7 r q

/-- Result 1: the new hidden array. -/
theorem ref_hid : val_main_v39 (F := Ideal) x0 x2 x3 x4 x5 = hidArr x0 x2 x3 x4 x5 := by
  funext i
  obtain ⟨r, q, rfl⟩ : ∃ (r : Fin 524288) (q : Fin 25), i = ix2 r q := ⟨i 0, i 1, eq_ix2 i⟩
  exact hid_at x0 x2 x3 x4 x5 r q

/-- Result 2: the two new cell states side by side. -/
theorem ref_ctx : val_main_v77 (F := Ideal) x0 x1 x2 x3 x4 x5 x6 x7 = ctxArr x0 x1 x2 x3 x4 x5 x6 x7 := by
  funext i
  obtain ⟨r, k, rfl⟩ : ∃ (r : Fin 524288) (k : Fin 56), i = ix2 r k := ⟨i 0, i 1, eq_ix2 i⟩
  unfold val_main_v77
  refine (concat_25_31 (val_main_v37 (F := Ideal) x0 x2 x3 x4 x5) (val_main_v73 (F := Ideal) x0 x1 x2 x3 x4 x5 x6 x7) _ r k).trans ?_
  have e1 : rowOf (val_main_v37 (F := Ideal) x0 x2 x3 x4 x5) r
      = ctx1 (join31_25 (rowOf x0 r) (rowOf x2 r)) (c1Of x3) (matOf x4) (vecOf x5) :=
    funext fun q => ctx1_at x0 x2 x3 x4 x5 r q
  have e2 : rowOf (val_main_v73 (F := Ideal) x0 x1 x2 x3 x4 x5 x6 x7) r
      = ctx2 (u2 (rowOf x0 r) (rowOf x2 r) (rowOf x1 r) (c1Of x3) (matOf x4) (vecOf x5)) (c2Of x3) (matOf x6) (vecOf x7) :=
    funext fun q => ctx2_at x0 x1 x2 x3 x4 x5 x6 x7 r q
  rw [e1, e2]
  rfl

end Cert.ReferenceIdeal.RefRows

end
-- ==== Proof.RefRun.lean ====
/-
  The reference program's run, stage by stage.

  The reference's @main is a straight line of 104 host operations. Its run leaves every buffer at the fold of the
  operations' results over the launch contents. Read as ONE composed term of the arguments, the three results are
  very large: the gate pre-activations of each cell are used four times, the first cell's output feeds the second,
  and the log-softmax uses its operand four times more. So the run is read here in six consecutive stretches of the
  operation list, cut where few buffers are live:

    A  the state rows and the first cell's gate pre-activations   (10 operations)
    B  the first cell: its new state and its output               (36 operations)
    C  the second cell's gate pre-activations                     ( 6 operations)
    D  the second cell: its new state and its output              (36 operations)
    E  the log-softmax of that output                             (15 operations)
    F  the two new states joined                                  ( 1 operation)

  For each stretch, from ANY contents that hold the stages it reads, the buffers it writes hold the next stages
  (the stage functions of the arguments, one per operation), and a buffer it does not write keeps its contents.
  Chaining the six gives the three results as the stage functions of the arguments, the arguments unchanged.
-/
import proofs.«137660_j37933151158488_1_alg».proof.Proof.RefOps
import proofs.«137660_j37933151158488_1_alg».proof.Proof.RefRead

noncomputable section

namespace Cert.ReferenceIdeal.StageRun

open Cert.ReferenceIdeal Cert.ReferenceIdeal.Gen Cert.ReferenceIdeal.RunOps Cert.ReferenceIdeal.ReadP Idealize.ShloMosaic Idealize.ShloMosaic.TcCoe Idealize.SL.Sem Idealize.ShloMosaic.StableHlo

variable {F : FTy → Type} [FloatOps F]

/-! ## The six stretches -/

abbrev opsA : List (HloOp τ sig (Elt F)) :=
  [ unary main_arg3 main_v0 ((extractStridedSlice S1x25 ![0, 0] · slices_S524288x56_S1x25_0_0) : (⟨S524288x56, .f32⟩ : BufTy).Contents (Elt F) → (⟨S1x25, .f32⟩ : BufTy).Contents (Elt F)),
    reshape main_v0 main_v1 rfl shapeCasts_S1x25_S25,
    unary main_arg3 main_v2 ((extractStridedSlice S1x31 ![0, 25] · slices_S524288x56_S1x31_0_25) : (⟨S524288x56, .f32⟩ : BufTy).Contents (Elt F) → (⟨S1x31, .f32⟩ : BufTy).Contents (Elt F)),
    reshape main_v2 main_v3 rfl shapeCasts_S1x31_S31,
    binary main_arg0 main_arg2 main_v4 ((fun a b => concatenate S524288x56 1 [⟨S524288x31, a⟩, ⟨S524288x25, b⟩] concatenates_S524288x31_S524288x25_S524288x56_d1) : (⟨S524288x31, .f32⟩ : BufTy).Contents (Elt F) → (⟨S524288x25, .f32⟩ : BufTy).Contents (Elt F) → (⟨S524288x56, .f32⟩ : BufTy).Contents (Elt F)),
    unary main_arg4 main_v5 ((transpose S56x100 [1, 0] · transposes_S100x56_S56x100_1_0) : (⟨S100x56, .f32⟩ : BufTy).Contents (Elt F) → (⟨S56x100, .f32⟩ : BufTy).Contents (Elt F)),
    binary main_v4 main_v5 main_v6 ((fun l r => Host.dotGeneral dot_S524288x56_S56x100_S524288x100_1_0_0_1_n_n none l r) : (⟨S524288x56, .f32⟩ : BufTy).Contents (Elt F) → (⟨S56x100, .f32⟩ : BufTy).Contents (Elt F) → (⟨S524288x100, .f32⟩ : BufTy).Contents (Elt F)),
    unary main_arg5 main_v7 (broadcastInDim S1x100 ![1] bcast_S100_S1x100_1 : (⟨S100, .f32⟩ : BufTy).Contents (Elt F) → (⟨S1x100, .f32⟩ : BufTy).Contents (Elt F)),
    unary main_v7 main_v8 (broadcastInDim S524288x100 ![0, 1] bcast_S1x100_S524288x100_0_1 : (⟨S1x100, .f32⟩ : BufTy).Contents (Elt F) → (⟨S524288x100, .f32⟩ : BufTy).Contents (Elt F)),
    binary main_v6 main_v8 main_v9 (addf : (⟨S524288x100, .f32⟩ : BufTy).Contents (Elt F) → (⟨S524288x100, .f32⟩ : BufTy).Contents (Elt F) → (⟨S524288x100, .f32⟩ : BufTy).Contents (Elt F)) ]

abbrev opsB : List (HloOp τ sig (Elt F)) :=
  [ unary main_v9 main_v10 ((extractStridedSlice S524288x25 ![0, 0] · slices_S524288x100_S524288x25_0_0) : (⟨S524288x100, .f32⟩ : BufTy).Contents (Elt F) → (⟨S524288x25, .f32⟩ : BufTy).Contents (Elt F)),
    unary main_v9 main_v11 ((extractStridedSlice S524288x25 ![0, 25] · slices_S524288x100_S524288x25_0_25) : (⟨S524288x100, .f32⟩ : BufTy).Contents (Elt F) → (⟨S524288x25, .f32⟩ : BufTy).Contents (Elt F)),
    unary main_v9 main_v12 ((extractStridedSlice S524288x25 ![0, 50] · slices_S524288x100_S524288x25_0_50) : (⟨S524288x100, .f32⟩ : BufTy).Contents (Elt F) → (⟨S524288x25, .f32⟩ : BufTy).Contents (Elt F)),
    unary main_v9 main_v13 ((extractStridedSlice S524288x25 ![0, 75] · slices_S524288x100_S524288x25_0_75) : (⟨S524288x100, .f32⟩ : BufTy).Contents (Elt F) → (⟨S524288x25, .f32⟩ : BufTy).Contents (Elt F)),
    unary main_v10 main_v14 (Host.negf : (⟨S524288x25, .f32⟩ : BufTy).Contents (Elt F) → (⟨S524288x25, .f32⟩ : BufTy).Contents (Elt F)),
    unary main_v14 main_v15 (Host.exp : (⟨S524288x25, .f32⟩ : BufTy).Contents (Elt F) → (⟨S524288x25, .f32⟩ : BufTy).Contents (Elt F)),
    nullary main_cst (constant S_ .f32 0x3F800000#32),
    unary main_cst main_v16 (broadcastInDim S524288x25 ![] bcast_S_S524288x25 : (⟨S_, .f32⟩ : BufTy).Contents (Elt F) → (⟨S524288x25, .f32⟩ : BufTy).Contents (Elt F)),
    binary main_v16 main_v15 main_v17 (addf : (⟨S524288x25, .f32⟩ : BufTy).Contents (Elt F) → (⟨S524288x25, .f32⟩ : BufTy).Contents (Elt F) → (⟨S524288x25, .f32⟩ : BufTy).Contents (Elt F)),
    nullary main_cst_0 (constant S_ .f32 0x3F800000#32),
    unary main_cst_0 main_v18 (broadcastInDim S524288x25 ![] bcast_S_S524288x25 : (⟨S_, .f32⟩ : BufTy).Contents (Elt F) → (⟨S524288x25, .f32⟩ : BufTy).Contents (Elt F)),
    binary main_v18 main_v17 main_v19 (Host.divf : (⟨S524288x25, .f32⟩ : BufTy).Contents (Elt F) → (⟨S524288x25, .f32⟩ : BufTy).Contents (Elt F) → (⟨S524288x25, .f32⟩ : BufTy).Contents (Elt F)),
    unary main_v11 main_v20 (Host.negf : (⟨S524288x25, .f32⟩ : BufTy).Contents (Elt F) → (⟨S524288x25, .f32⟩ : BufTy).Contents (Elt F)),
    unary main_v20 main_v21 (Host.exp : (⟨S524288x25, .f32⟩ : BufTy).Contents (Elt F) → (⟨S524288x25, .f32⟩ : BufTy).Contents (Elt F)),
    nullary main_cst_1 (constant S_ .f32 0x3F800000#32),
    unary main_cst_1 main_v22 (broadcastInDim S524288x25 ![] bcast_S_S524288x25 : (⟨S_, .f32⟩ : BufTy).Contents (Elt F) → (⟨S524288x25, .f32⟩ : BufTy).Contents (Elt F)),
    binary main_v22 main_v21 main_v23 (addf : (⟨S524288x25, .f32⟩ : BufTy).Contents (Elt F) → (⟨S524288x25, .f32⟩ : BufTy).Contents (Elt F) → (⟨S524288x25, .f32⟩ : BufTy).Contents (Elt F)),
    nullary main_cst_2 (constant S_ .f32 0x3F800000#32),
    unary main_cst_2 main_v24 (broadcastInDim S524288x25 ![] bcast_S_S524288x25 : (⟨S_, .f32⟩ : BufTy).Contents (Elt F) → (⟨S524288x25, .f32⟩ : BufTy).Contents (Elt F)),
    binary main_v24 main_v23 main_v25 (Host.divf : (⟨S524288x25, .f32⟩ : BufTy).Contents (Elt F) → (⟨S524288x25, .f32⟩ : BufTy).Contents (Elt F) → (⟨S524288x25, .f32⟩ : BufTy).Contents (Elt F)),
    unary main_v12 main_v26 (Host.tanh : (⟨S524288x25, .f32⟩ : BufTy).Contents (Elt F) → (⟨S524288x25, .f32⟩ : BufTy).Contents (Elt F)),
    unary main_v13 main_v27 (Host.negf : (⟨S524288x25, .f32⟩ : BufTy).Contents (Elt F) → (⟨S524288x25, .f32⟩ : BufTy).Contents (Elt F)),
    unary main_v27 main_v28 (Host.exp : (⟨S524288x25, .f32⟩ : BufTy).Contents (Elt F) → (⟨S524288x25, .f32⟩ : BufTy).Contents (Elt F)),
    nullary main_cst_3 (constant S_ .f32 0x3F800000#32),
    unary main_cst_3 main_v29 (broadcastInDim S524288x25 ![] bcast_S_S524288x25 : (⟨S_, .f32⟩ : BufTy).Contents (Elt F) → (⟨S524288x25, .f32⟩ : BufTy).Contents (Elt F)),
    binary main_v29 main_v28 main_v30 (addf : (⟨S524288x25, .f32⟩ : BufTy).Contents (Elt F) → (⟨S524288x25, .f32⟩ : BufTy).Contents (Elt F) → (⟨S524288x25, .f32⟩ : BufTy).Contents (Elt F)),
    nullary main_cst_4 (constant S_ .f32 0x3F800000#32),
    unary main_cst_4 main_v31 (broadcastInDim S524288x25 ![] bcast_S_S524288x25 : (⟨S_, .f32⟩ : BufTy).Contents (Elt F) → (⟨S524288x25, .f32⟩ : BufTy).Contents (Elt F)),
    binary main_v31 main_v30 main_v32 (Host.divf : (⟨S524288x25, .f32⟩ : BufTy).Contents (Elt F) → (⟨S524288x25, .f32⟩ : BufTy).Contents (Elt F) → (⟨S524288x25, .f32⟩ : BufTy).Contents (Elt F)),
    unary main_v1 main_v33 (broadcastInDim S1x25 ![1] bcast_S25_S1x25_1 : (⟨S25, .f32⟩ : BufTy).Contents (Elt F) → (⟨S1x25, .f32⟩ : BufTy).Contents (Elt F)),
    unary main_v33 main_v34 (broadcastInDim S524288x25 ![0, 1] bcast_S1x25_S524288x25_0_1 : (⟨S1x25, .f32⟩ : BufTy).Contents (Elt F) → (⟨S524288x25, .f32⟩ : BufTy).Contents (Elt F)),
    binary main_v34 main_v19 main_v35 (mulf : (⟨S524288x25, .f32⟩ : BufTy).Contents (Elt F) → (⟨S524288x25, .f32⟩ : BufTy).Contents (Elt F) → (⟨S524288x25, .f32⟩ : BufTy).Contents (Elt F)),
    binary main_v25 main_v26 main_v36 (mulf : (⟨S524288x25, .f32⟩ : BufTy).Contents (Elt F) → (⟨S524288x25, .f32⟩ : BufTy).Contents (Elt F) → (⟨S524288x25, .f32⟩ : BufTy).Contents (Elt F)),
    binary main_v35 main_v36 main_v37 (addf : (⟨S524288x25, .f32⟩ : BufTy).Contents (Elt F) → (⟨S524288x25, .f32⟩ : BufTy).Contents (Elt F) → (⟨S524288x25, .f32⟩ : BufTy).Contents (Elt F)),
    unary main_v37 main_v38 (Host.tanh : (⟨S524288x25, .f32⟩ : BufTy).Contents (Elt F) → (⟨S524288x25, .f32⟩ : BufTy).Contents (Elt F)),
    binary main_v38 main_v32 main_v39 (mulf : (⟨S524288x25, .f32⟩ : BufTy).Contents (Elt F) → (⟨S524288x25, .f32⟩ : BufTy).Contents (Elt F) → (⟨S524288x25, .f32⟩ : BufTy).Contents (Elt F)) ]

abbrev opsC : List (HloOp τ sig (Elt F)) :=
  [ binary main_v39 main_arg1 main_v40 ((fun a b => concatenate S524288x56 1 [⟨S524288x25, a⟩, ⟨S524288x31, b⟩] concatenates_S524288x25_S524288x31_S524288x56_d1) : (⟨S524288x25, .f32⟩ : BufTy).Contents (Elt F) → (⟨S524288x31, .f32⟩ : BufTy).Contents (Elt F) → (⟨S524288x56, .f32⟩ : BufTy).Contents (Elt F)),
    unary main_arg6 main_v41 ((transpose S56x124 [1, 0] · transposes_S124x56_S56x124_1_0) : (⟨S124x56, .f32⟩ : BufTy).Contents (Elt F) → (⟨S56x124, .f32⟩ : BufTy).Contents (Elt F)),
    binary main_v40 main_v41 main_v42 ((fun l r => Host.dotGeneral dot_S524288x56_S56x124_S524288x124_1_0_0_1_n_n none l r) : (⟨S524288x56, .f32⟩ : BufTy).Contents (Elt F) → (⟨S56x124, .f32⟩ : BufTy).Contents (Elt F) → (⟨S524288x124, .f32⟩ : BufTy).Contents (Elt F)),
    unary main_arg7 main_v43 (broadcastInDim S1x124 ![1] bcast_S124_S1x124_1 : (⟨S124, .f32⟩ : BufTy).Contents (Elt F) → (⟨S1x124, .f32⟩ : BufTy).Contents (Elt F)),
    unary main_v43 main_v44 (broadcastInDim S524288x124 ![0, 1] bcast_S1x124_S524288x124_0_1 : (⟨S1x124, .f32⟩ : BufTy).Contents (Elt F) → (⟨S524288x124, .f32⟩ : BufTy).Contents (Elt F)),
    binary main_v42 main_v44 main_v45 (addf : (⟨S524288x124, .f32⟩ : BufTy).Contents (Elt F) → (⟨S524288x124, .f32⟩ : BufTy).Contents (Elt F) → (⟨S524288x124, .f32⟩ : BufTy).Contents (Elt F)) ]

abbrev opsD : List (HloOp τ sig (Elt F)) :=
  [ unary main_v45 main_v46 ((extractStridedSlice S524288x31 ![0, 0] · slices_S524288x124_S524288x31_0_0) : (⟨S524288x124, .f32⟩ : BufTy).Contents (Elt F) → (⟨S524288x31, .f32⟩ : BufTy).Contents (Elt F)),
    unary main_v45 main_v47 ((extractStridedSlice S524288x31 ![0, 31] · slices_S524288x124_S524288x31_0_31) : (⟨S524288x124, .f32⟩ : BufTy).Contents (Elt F) → (⟨S524288x31, .f32⟩ : BufTy).Contents (Elt F)),
    unary main_v45 main_v48 ((extractStridedSlice S524288x31 ![0, 62] · slices_S524288x124_S524288x31_0_62) : (⟨S524288x124, .f32⟩ : BufTy).Contents (Elt F) → (⟨S524288x31, .f32⟩ : BufTy).Contents (Elt F)),
    unary main_v45 main_v49 ((extractStridedSlice S524288x31 ![0, 93] · slices_S524288x124_S524288x31_0_93) : (⟨S524288x124, .f32⟩ : BufTy).Contents (Elt F) → (⟨S524288x31, .f32⟩ : BufTy).Contents (Elt F)),
    unary main_v46 main_v50 (Host.negf : (⟨S524288x31, .f32⟩ : BufTy).Contents (Elt F) → (⟨S524288x31, .f32⟩ : BufTy).Contents (Elt F)),
    unary main_v50 main_v51 (Host.exp : (⟨S524288x31, .f32⟩ : BufTy).Contents (Elt F) → (⟨S524288x31, .f32⟩ : BufTy).Contents (Elt F)),
    nullary main_cst_5 (constant S_ .f32 0x3F800000#32),
    unary main_cst_5 main_v52 (broadcastInDim S524288x31 ![] bcast_S_S524288x31 : (⟨S_, .f32⟩ : BufTy).Contents (Elt F) → (⟨S524288x31, .f32⟩ : BufTy).Contents (Elt F)),
    binary main_v52 main_v51 main_v53 (addf : (⟨S524288x31, .f32⟩ : BufTy).Contents (Elt F) → (⟨S524288x31, .f32⟩ : BufTy).Contents (Elt F) → (⟨S524288x31, .f32⟩ : BufTy).Contents (Elt F)),
    nullary main_cst_6 (constant S_ .f32 0x3F800000#32),
    unary main_cst_6 main_v54 (broadcastInDim S524288x31 ![] bcast_S_S524288x31 : (⟨S_, .f32⟩ : BufTy).Contents (Elt F) → (⟨S524288x31, .f32⟩ : BufTy).Contents (Elt F)),
    binary main_v54 main_v53 main_v55 (Host.divf : (⟨S524288x31, .f32⟩ : BufTy).Contents (Elt F) → (⟨S524288x31, .f32⟩ : BufTy).Contents (Elt F) → (⟨S524288x31, .f32⟩ : BufTy).Contents (Elt F)),
    unary main_v47 main_v56 (Host.negf : (⟨S524288x31, .f32⟩ : BufTy).Contents (Elt F) → (⟨S524288x31, .f32⟩ : BufTy).Contents (Elt F)),
    unary main_v56 main_v57 (Host.exp : (⟨S524288x31, .f32⟩ : BufTy).Contents (Elt F) → (⟨S524288x31, .f32⟩ : BufTy).Contents (Elt F)),
    nullary main_cst_7 (constant S_ .f32 0x3F800000#32),
    unary main_cst_7 main_v58 (broadcastInDim S524288x31 ![] bcast_S_S524288x31 : (⟨S_, .f32⟩ : BufTy).Contents (Elt F) → (⟨S524288x31, .f32⟩ : BufTy).Contents (Elt F)),
    binary main_v58 main_v57 main_v59 (addf : (⟨S524288x31, .f32⟩ : BufTy).Contents (Elt F) → (⟨S524288x31, .f32⟩ : BufTy).Contents (Elt F) → (⟨S524288x31, .f32⟩ : BufTy).Contents (Elt F)),
    nullary main_cst_8 (constant S_ .f32 0x3F800000#32),
    unary main_cst_8 main_v60 (broadcastInDim S524288x31 ![] bcast_S_S524288x31 : (⟨S_, .f32⟩ : BufTy).Contents (Elt F) → (⟨S524288x31, .f32⟩ : BufTy).Contents (Elt F)),
    binary main_v60 main_v59 main_v61 (Host.divf : (⟨S524288x31, .f32⟩ : BufTy).Contents (Elt F) → (⟨S524288x31, .f32⟩ : BufTy).Contents (Elt F) → (⟨S524288x31, .f32⟩ : BufTy).Contents (Elt F)),
    unary main_v48 main_v62 (Host.tanh : (⟨S524288x31, .f32⟩ : BufTy).Contents (Elt F) → (⟨S524288x31, .f32⟩ : BufTy).Contents (Elt F)),
    unary main_v49 main_v63 (Host.negf : (⟨S524288x31, .f32⟩ : BufTy).Contents (Elt F) → (⟨S524288x31, .f32⟩ : BufTy).Contents (Elt F)),
    unary main_v63 main_v64 (Host.exp : (⟨S524288x31, .f32⟩ : BufTy).Contents (Elt F) → (⟨S524288x31, .f32⟩ : BufTy).Contents (Elt F)),
    nullary main_cst_9 (constant S_ .f32 0x3F800000#32),
    unary main_cst_9 main_v65 (broadcastInDim S524288x31 ![] bcast_S_S524288x31 : (⟨S_, .f32⟩ : BufTy).Contents (Elt F) → (⟨S524288x31, .f32⟩ : BufTy).Contents (Elt F)),
    binary main_v65 main_v64 main_v66 (addf : (⟨S524288x31, .f32⟩ : BufTy).Contents (Elt F) → (⟨S524288x31, .f32⟩ : BufTy).Contents (Elt F) → (⟨S524288x31, .f32⟩ : BufTy).Contents (Elt F)),
    nullary main_cst_10 (constant S_ .f32 0x3F800000#32),
    unary main_cst_10 main_v67 (broadcastInDim S524288x31 ![] bcast_S_S524288x31 : (⟨S_, .f32⟩ : BufTy).Contents (Elt F) → (⟨S524288x31, .f32⟩ : BufTy).Contents (Elt F)),
    binary main_v67 main_v66 main_v68 (Host.divf : (⟨S524288x31, .f32⟩ : BufTy).Contents (Elt F) → (⟨S524288x31, .f32⟩ : BufTy).Contents (Elt F) → (⟨S524288x31, .f32⟩ : BufTy).Contents (Elt F)),
    unary main_v3 main_v69 (broadcastInDim S1x31 ![1] bcast_S31_S1x31_1 : (⟨S31, .f32⟩ : BufTy).Contents (Elt F) → (⟨S1x31, .f32⟩ : BufTy).Contents (Elt F)),
    unary main_v69 main_v70 (broadcastInDim S524288x31 ![0, 1] bcast_S1x31_S524288x31_0_1 : (⟨S1x31, .f32⟩ : BufTy).Contents (Elt F) → (⟨S524288x31, .f32⟩ : BufTy).Contents (Elt F)),
    binary main_v70 main_v55 main_v71 (mulf : (⟨S524288x31, .f32⟩ : BufTy).Contents (Elt F) → (⟨S524288x31, .f32⟩ : BufTy).Contents (Elt F) → (⟨S524288x31, .f32⟩ : BufTy).Contents (Elt F)),
    binary main_v61 main_v62 main_v72 (mulf : (⟨S524288x31, .f32⟩ : BufTy).Contents (Elt F) → (⟨S524288x31, .f32⟩ : BufTy).Contents (Elt F) → (⟨S524288x31, .f32⟩ : BufTy).Contents (Elt F)),
    binary main_v71 main_v72 main_v73 (addf : (⟨S524288x31, .f32⟩ : BufTy).Contents (Elt F) → (⟨S524288x31, .f32⟩ : BufTy).Contents (Elt F) → (⟨S524288x31, .f32⟩ : BufTy).Contents (Elt F)),
    unary main_v73 main_v74 (Host.tanh : (⟨S524288x31, .f32⟩ : BufTy).Contents (Elt F) → (⟨S524288x31, .f32⟩ : BufTy).Contents (Elt F)),
    binary main_v74 main_v68 main_v75 (mulf : (⟨S524288x31, .f32⟩ : BufTy).Contents (Elt F) → (⟨S524288x31, .f32⟩ : BufTy).Contents (Elt F) → (⟨S524288x31, .f32⟩ : BufTy).Contents (Elt F)) ]

abbrev opsE : List (HloOp τ sig (Elt F)) :=
  [ TRef.nullary (TRef.of (T := ⟨S_, .f32⟩) main_call0_cst) (constant S_ .f32 0xFF800000#32),
    TRef.binary (TRef.of (T := ⟨S524288x31, .f32⟩) main_v75) (TRef.of (T := ⟨S_, .f32⟩) main_call0_cst) (TRef.of (T := ⟨S524288, .f32⟩) main_call0_v0) (fun x v => Host.reduce FloatOps.maximumf x v reducesTo_S524288x31_S524288_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S524288, .f32⟩) main_call0_v1) (broadcastInDim S524288 ![] bcast_S_S524288),
    TRef.binary (TRef.of (T := ⟨S524288, .f32⟩) main_call0_v1) (TRef.of (T := ⟨S524288, .f32⟩) main_call0_v0) (TRef.of (T := ⟨S524288, .f32⟩) main_call0_v2) maximumf,
    TRef.unary (TRef.of (T := ⟨S524288, .f32⟩) main_call0_v2) (TRef.of (T := ⟨S524288x1, .f32⟩) main_call0_v3) (broadcastInDim S524288x1 ![0] bcast_S524288_S524288x1_0),
    TRef.unary (TRef.of (T := ⟨S524288x1, .f32⟩) main_call0_v3) (TRef.of (T := ⟨S524288x31, .f32⟩) main_call0_v4) (broadcastInDim S524288x31 ![0, 1] bcast_S524288x1_S524288x31_0_1),
    TRef.binary (TRef.of (T := ⟨S524288x31, .f32⟩) main_v75) (TRef.of (T := ⟨S524288x31, .f32⟩) main_call0_v4) (TRef.of (T := ⟨S524288x31, .f32⟩) main_call0_v5) subf,
    TRef.unary (TRef.of (T := ⟨S524288x31, .f32⟩) main_call0_v5) (TRef.of (T := ⟨S524288x31, .f32⟩) main_call0_v6) Host.exp,
    TRef.nullary (TRef.of (T := ⟨S_, .f32⟩) main_call0_cst_1) (constant S_ .f32 0x00000000#32),
    TRef.binary (TRef.of (T := ⟨S524288x31, .f32⟩) main_call0_v6) (TRef.of (T := ⟨S_, .f32⟩) main_call0_cst_1) (TRef.of (T := ⟨S524288, .f32⟩) main_call0_v7) (fun x v => Host.reduceAdd x v reducesTo_S524288x31_S524288_d1 h_S_),
    TRef.unary (TRef.of (T := ⟨S524288, .f32⟩) main_call0_v7) (TRef.of (T := ⟨S524288x1, .f32⟩) main_call0_v8) (broadcastInDim S524288x1 ![0] bcast_S524288_S524288x1_0),
    TRef.unary (TRef.of (T := ⟨S524288x1, .f32⟩) main_call0_v8) (TRef.of (T := ⟨S524288x1, .f32⟩) main_call0_v9) Host.log,
    TRef.unary (TRef.of (T := ⟨S524288x1, .f32⟩) main_call0_v9) (TRef.of (T := ⟨S524288x31, .f32⟩) main_call0_v10) (broadcastInDim S524288x31 ![0, 1] bcast_S524288x1_S524288x31_0_1),
    TRef.binary (TRef.of (T := ⟨S524288x31, .f32⟩) main_call0_v5) (TRef.of (T := ⟨S524288x31, .f32⟩) main_call0_v10) (TRef.of (T := ⟨S524288x31, .f32⟩) main_v76) subf ]

abbrev opsF : List (HloOp τ sig (Elt F)) :=
  [ binary main_v37 main_v73 main_v77 ((fun a b => concatenate S524288x56 1 [⟨S524288x25, a⟩, ⟨S524288x31, b⟩] concatenates_S524288x25_S524288x31_S524288x56_d1) : (⟨S524288x25, .f32⟩ : BufTy).Contents (Elt F) → (⟨S524288x31, .f32⟩ : BufTy).Contents (Elt F) → (⟨S524288x56, .f32⟩ : BufTy).Contents (Elt F)) ]

/-- The operation list is the six stretches in order. -/
theorem ops_split : (ops : List (HloOp τ sig (Elt F))) = opsA ++ (opsB ++ (opsC ++ (opsD ++ (opsE ++ opsF)))) := rfl

/-- The contents after two lists run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (V : Valuation τ sig (Elt F))
  (x0 x1 : (⟨S524288x31, .f32⟩ : BufTy).Contents (Elt F)) (x2 : (⟨S524288x25, .f32⟩ : BufTy).Contents (Elt F))
  (x3 : (⟨S524288x56, .f32⟩ : BufTy).Contents (Elt F)) (x4 : (⟨S100x56, .f32⟩ : BufTy).Contents (Elt F))
  (x5 : (⟨S100, .f32⟩ : BufTy).Contents (Elt F)) (x6 : (⟨S124x56, .f32⟩ : BufTy).Contents (Elt F))
  (x7 : (⟨S124, .f32⟩ : BufTy).Contents (Elt F))

/-! ## Stretch A -/

theorem A_v1 (h3 : V (Proc.devRef .tc main_arg3) = x3) :
    after opsA V (Proc.devRef .tc main_v1) = val_main_v1 (F := F) x3 := by
  subst h3
  after_results_simp <;> rfl

theorem A_v3 (h3 : V (Proc.devRef .tc main_arg3) = x3) :
    after opsA V (Proc.devRef .tc main_v3) = val_main_v3 (F := F) x3 := by
  subst h3
  after_results_simp <;> rfl

theorem A_v9 (h0 : V (Proc.devRef .tc main_arg0) = x0) (h2 : V (Proc.devRef .tc main_arg2) = x2)
    (h4 : V (Proc.devRef .tc main_arg4) = x4) (h5 : V (Proc.devRef .tc main_arg5) = x5) :
    after opsA V (Proc.devRef .tc main_v9) = val_main_v9 (F := F) x0 x2 x4 x5 := by
  subst h0 h2 h4 h5
  after_results_simp <;> rfl

theorem A_keep_arg1 : after opsA V (Proc.devRef .tc main_arg1) = V (Proc.devRef .tc main_arg1) := by
  after_results_simp <;> rfl
theorem A_keep_arg6 : after opsA V (Proc.devRef .tc main_arg6) = V (Proc.devRef .tc main_arg6) := by
  after_results_simp <;> rfl
theorem A_keep_arg7 : after opsA V (Proc.devRef .tc main_arg7) = V (Proc.devRef .tc main_arg7) := by
  after_results_simp <;> rfl

/-! ## Stretch B -/

theorem B_v37 (h9 : V (Proc.devRef .tc main_v9) = val_main_v9 (F := F) x0 x2 x4 x5)
    (h1 : V (Proc.devRef .tc main_v1) = val_main_v1 (F := F) x3) :
    after opsB V (Proc.devRef .tc main_v37) = val_main_v37 (F := F) x0 x2 x3 x4 x5 := by
  after_results_simp
  rw [h9, h1]
  rfl

theorem B_v39 (h9 : V (Proc.devRef .tc main_v9) = val_main_v9 (F := F) x0 x2 x4 x5)
    (h1 : V (Proc.devRef .tc main_v1) = val_main_v1 (F := F) x3) :
    after opsB V (Proc.devRef .tc main_v39) = val_main_v39 (F := F) x0 x2 x3 x4 x5 := by
  after_results_simp
  rw [h9, h1]
  rfl

theorem B_keep_arg1 : after opsB V (Proc.devRef .tc main_arg1) = V (Proc.devRef .tc main_arg1) := by
  after_results_simp <;> rfl
theorem B_keep_arg6 : after opsB V (Proc.devRef .tc main_arg6) = V (Proc.devRef .tc main_arg6) := by
  after_results_simp <;> rfl
theorem B_keep_arg7 : after opsB V (Proc.devRef .tc main_arg7) = V (Proc.devRef .tc main_arg7) := by
  after_results_simp <;> rfl
theorem B_keep_v3 : after opsB V (Proc.devRef .tc main_v3) = V (Proc.devRef .tc main_v3) := by
  after_results_simp <;> rfl

/-! ## Stretch C -/

theorem C_v45 (h39 : V (Proc.devRef .tc main_v39) = val_main_v39 (F := F) x0 x2 x3 x4 x5)
    (h1 : V (Proc.devRef .tc main_arg1) = x1) (h6 : V (Proc.devRef .tc main_arg6) = x6)
    (h7 : V (Proc.devRef .tc main_arg7) = x7) :
    after opsC V (Proc.devRef .tc main_v45) = val_main_v45 (F := F) x0 x1 x2 x3 x4 x5 x6 x7 := by
  subst h1 h6 h7
  after_results_simp
  rw [h39]
  rfl

theorem C_keep_v3 : after opsC V (Proc.devRef .tc main_v3) = V (Proc.devRef .tc main_v3) := by
  after_results_simp <;> rfl
theorem C_keep_v37 : after opsC V (Proc.devRef .tc main_v37) = V (Proc.devRef .tc main_v37) := by
  after_results_simp <;> rfl
theorem C_keep_v39 : after opsC V (Proc.devRef .tc main_v39) = V (Proc.devRef .tc main_v39) := by
  after_results_simp <;> rfl

/-! ## Stretch D -/

theorem D_v73 (h45 : V (Proc.devRef .tc main_v45) = val_main_v45 (F := F) x0 x1 x2 x3 x4 x5 x6 x7)
    (h3 : V (Proc.devRef .tc main_v3) = val_main_v3 (F := F) x3) :
    after opsD V (Proc.devRef .tc main_v73) = val_main_v73 (F := F) x0 x1 x2 x3 x4 x5 x6 x7 := by
  after_results_simp
  rw [h45, h3]
  rfl

theorem D_v75 (h45 : V (Proc.devRef .tc main_v45) = val_main_v45 (F := F) x0 x1 x2 x3 x4 x5 x6 x7)
    (h3 : V (Proc.devRef .tc main_v3) = val_main_v3 (F := F) x3) :
    after opsD V (Proc.devRef .tc main_v75) = val_main_v75 (F := F) x0 x1 x2 x3 x4 x5 x6 x7 := by
  after_results_simp
  rw [h45, h3]
  rfl

theorem D_keep_v37 : after opsD V (Proc.devRef .tc main_v37) = V (Proc.devRef .tc main_v37) := by
  after_results_simp <;> rfl
theorem D_keep_v39 : after opsD V (Proc.devRef .tc main_v39) = V (Proc.devRef .tc main_v39) := by
  after_results_simp <;> rfl

/-! ## Stretch E: the operations of the inlined log-softmax

These operations are spelt over references that carry their tensor type; contents move to and from a buffer's own
type along that type equation, which is the identity. -/

/-- Moving contents to a buffer's type and back changes nothing. -/
theorem ofBuf_toBuf {T : BufTy} (x : TRef sig T) (v : T.Contents (Elt F)) : x.ofBuf (x.toBuf v) = v := by
  unfold TRef.ofBuf TRef.toBuf
  rw [cast_cast, cast_eq]

/-- The second cell's output, read at its own buffer's type. -/
theorem ofBuf_v75 (p1 p2 p3) (w : (⟨S524288x31, .f32⟩ : BufTy).Contents (Elt F)) :
    (TRef.of (T := ⟨S524288x31, .f32⟩) main_v75 p1 p2 p3).ofBuf w = w := cast_eq _ _

/-- The log-softmax result, written at its own buffer's type. -/
theorem toBuf_v76 (p1 p2 p3) (w : (⟨S524288x31, .f32⟩ : BufTy).Contents (Elt F)) :
    (TRef.of (T := ⟨S524288x31, .f32⟩) main_v76 p1 p2 p3).toBuf w = w := cast_eq _ _

theorem E_v76 (h75 : V (Proc.devRef .tc main_v75) = val_main_v75 (F := F) x0 x1 x2 x3 x4 x5 x6 x7) :
    after opsE V (Proc.devRef .tc main_v76) = val_main_v76 (F := F) x0 x1 x2 x3 x4 x5 x6 x7 := by
  after_results_simp
  rw [h75]
  simp only [ofBuf_toBuf]
  rw [ofBuf_v75, toBuf_v76]
  rfl

theorem E_keep_v37 : after opsE V (Proc.devRef .tc main_v37) = V (Proc.devRef .tc main_v37) := by
  after_results_simp <;> rfl
theorem E_keep_v39 : after opsE V (Proc.devRef .tc main_v39) = V (Proc.devRef .tc main_v39) := by
  after_results_simp <;> rfl
theorem E_keep_v73 : after opsE V (Proc.devRef .tc main_v73) = V (Proc.devRef .tc main_v73) := by
  after_results_simp <;> rfl

/-! ## Stretch F -/

theorem F_v77 (h37 : V (Proc.devRef .tc main_v37) = val_main_v37 (F := F) x0 x2 x3 x4 x5)
    (h73 : V (Proc.devRef .tc main_v73) = val_main_v73 (F := F) x0 x1 x2 x3 x4 x5 x6 x7) :
    after opsF V (Proc.devRef .tc main_v77) = val_main_v77 (F := F) x0 x1 x2 x3 x4 x5 x6 x7 := by
  after_results_simp
  rw [h37, h73]
  rfl

theorem F_keep_v39 : after opsF V (Proc.devRef .tc main_v39) = V (Proc.devRef .tc main_v39) := by
  after_results_simp <;> rfl
theorem F_keep_v76 : after opsF V (Proc.devRef .tc main_v76) = V (Proc.devRef .tc main_v76) := by
  after_results_simp <;> rfl

/-! ## The whole list -/

/-- The three results after all 104 operations, from contents that hold the arguments. -/
theorem after_ops (h0 : V (Proc.devRef .tc main_arg0) = x0) (h1 : V (Proc.devRef .tc main_arg1) = x1)
    (h2 : V (Proc.devRef .tc main_arg2) = x2) (h3 : V (Proc.devRef .tc main_arg3) = x3)
    (h4 : V (Proc.devRef .tc main_arg4) = x4) (h5 : V (Proc.devRef .tc main_arg5) = x5)
    (h6 : V (Proc.devRef .tc main_arg6) = x6) (h7 : V (Proc.devRef .tc main_arg7) = x7) :
    after ops V (Proc.devRef .tc main_v76) = val_main_v76 (F := F) x0 x1 x2 x3 x4 x5 x6 x7
      ∧ after ops V (Proc.devRef .tc main_v39) = val_main_v39 (F := F) x0 x2 x3 x4 x5
      ∧ after ops V (Proc.devRef .tc main_v77) = val_main_v77 (F := F) x0 x1 x2 x3 x4 x5 x6 x7 := by
  rw [ops_split, after_append, after_append, after_append, after_append, after_append]
  -- after A
  have a1 := A_v1 V x3 h3
  have a3 := A_v3 V x3 h3
  have a9 := A_v9 V x0 x2 x4 x5 h0 h2 h4 h5
  have ka1 := (A_keep_arg1 V).trans h1
  have ka6 := (A_keep_arg6 V).trans h6
  have ka7 := (A_keep_arg7 V).trans h7
  -- after B
  have b37 := B_v37 (after opsA V) x0 x2 x3 x4 x5 a9 a1
  have b39 := B_v39 (after opsA V) x0 x2 x3 x4 x5 a9 a1
  have kb1 := (B_keep_arg1 (after opsA V)).trans ka1
  have kb6 := (B_keep_arg6 (after opsA V)).trans ka6
  have kb7 := (B_keep_arg7 (after opsA V)).trans ka7
  have kb3 := (B_keep_v3 (after opsA V)).trans a3
  -- after C
  have c45 := C_v45 (after opsB (after opsA V)) x0 x1 x2 x3 x4 x5 x6 x7 b39 kb1 kb6 kb7
  have kc3 := (C_keep_v3 (after opsB (after opsA V))).trans kb3
  have kc37 := (C_keep_v37 (after opsB (after opsA V))).trans b37
  have kc39 := (C_keep_v39 (after opsB (after opsA V))).trans b39
  -- after D
  have d73 := D_v73 (after opsC (after opsB (after opsA V))) x0 x1 x2 x3 x4 x5 x6 x7 c45 kc3
  have d75 := D_v75 (after opsC (after opsB (after opsA V))) x0 x1 x2 x3 x4 x5 x6 x7 c45 kc3
  have kd37 := (D_keep_v37 (after opsC (after opsB (after opsA V)))).trans kc37
  have kd39 := (D_keep_v39 (after opsC (after opsB (after opsA V)))).trans kc39
  -- after E
  have e76 := E_v76 (after opsD (after opsC (after opsB (after opsA V)))) x0 x1 x2 x3 x4 x5 x6 x7 d75
  have ke37 := (E_keep_v37 (after opsD (after opsC (after opsB (after opsA V))))).trans kd37
  have ke39 := (E_keep_v39 (after opsD (after opsC (after opsB (after opsA V))))).trans kd39
  have ke73 := (E_keep_v73 (after opsD (after opsC (after opsB (after opsA V))))).trans d73
  -- after F
  exact ⟨(F_keep_v76 (after opsE (after opsD (after opsC (after opsB (after opsA V)))))).trans e76,
    (F_keep_v39 (after opsE (after opsD (after opsC (after opsB (after opsA V)))))).trans ke39,
    F_v77 (after opsE (after opsD (after opsC (after opsB (after opsA V))))) x0 x1 x2 x3 x4 x5 x6 x7 ke37 ke73⟩

/-- No operation writes an argument. -/
theorem keep_arg0 : after ops V (Proc.devRef .tc main_arg0) = V (Proc.devRef .tc main_arg0) := by
  after_results_simp <;> rfl
theorem keep_arg1 : after ops V (Proc.devRef .tc main_arg1) = V (Proc.devRef .tc main_arg1) := by
  after_results_simp <;> rfl
theorem keep_arg2 : after ops V (Proc.devRef .tc main_arg2) = V (Proc.devRef .tc main_arg2) := by
  after_results_simp <;> rfl
theorem keep_arg3 : after ops V (Proc.devRef .tc main_arg3) = V (Proc.devRef .tc main_arg3) := by
  after_results_simp <;> rfl
theorem keep_arg4 : after ops V (Proc.devRef .tc main_arg4) = V (Proc.devRef .tc main_arg4) := by
  after_results_simp <;> rfl
theorem keep_arg5 : after ops V (Proc.devRef .tc main_arg5) = V (Proc.devRef .tc main_arg5) := by
  after_results_simp <;> rfl
theorem keep_arg6 : after ops V (Proc.devRef .tc main_arg6) = V (Proc.devRef .tc main_arg6) := by
  after_results_simp <;> rfl
theorem keep_arg7 : after ops V (Proc.devRef .tc main_arg7) = V (Proc.devRef .tc main_arg7) := by
  after_results_simp <;> rfl

/-! ## The run -/

/-- On every device, for any float values, from any memory with zero counters: every weakly fair execution of @main
    terminates with the three results at their stage functions of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76) = val_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v39) = val_main_v39 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      obtain ⟨e76, e39, e77⟩ := after_ops (F := F) (launchContents m c) _ _ _ _ _ _ _ _ rfl rfl rfl rfl rfl rfl rfl rfl
      exact ⟨(h c main_v76).trans e76, (h c main_v39).trans e39, (h c main_v77).trans e77,
        (h c main_arg0).trans (keep_arg0 _), (h c main_arg1).trans (keep_arg1 _), (h c main_arg2).trans (keep_arg2 _),
        (h c main_arg3).trans (keep_arg3 _), (h c main_arg4).trans (keep_arg4 _), (h c main_arg5).trans (keep_arg5 _),
        (h c main_arg6).trans (keep_arg6 _), (h c main_arg7).trans (keep_arg7 _)⟩)
    (run_seq scopedRefs_eq scopedSems_eq defs main (fun _ => ops) main_eq (fun _ => ops_sub) m ρ)

end Cert.ReferenceIdeal.StageRun

end
-- ==== Proof.lean ====
/-
  The certificate's proof: a fused two-cell recurrent step with a log-softmax, against its plain reference.

  Both programs compute, for each of the 524288 rows independently, the row functions of Proof/TwoCellSpec.lean:
  two gated cells chained (the first's output is part of the second's input), each a contraction over 56 joined
  entries followed by logistic and tanh gates, then the log-softmax of the second cell's output. The kernel does
  this block by block (2048 rows at a time) with the weights transposed on the host beforehand; the reference does
  it on whole arrays and spells the logistic function out as 1 / (1 + exp (−x)), which on the extended reals is the
  logistic function by definition. Changes of float format are the identity there, and the two programs add and
  multiply the same terms in the same arrangement up to the order of a finite sum, so the results agree for every
  extended-real input: the precondition is not used.

  Proof/KernelRows.lean reads the kernel body's three stored blocks at an index; Proof/KernelArrays.lean lifts that
  from blocks to the three result arrays of the kernel's run; Proof/RefRows.lean reads the reference's three results
  at an index; Proof/RefRun.lean is the reference's run, read in five stretches of its operation list. The frames of
  the two kernels are their frame certificates; the reference's frame is its run with the results dropped. The
  idealization rewrote nothing, so there is nothing to preserve.
-/
import proofs.«137660_j37933151158488_1_alg».proof.Defs
import proofs.«137660_j37933151158488_1_alg».proof.Proof.Gen.Kernel
import proofs.«137660_j37933151158488_1_alg».proof.Proof.Gen.Kernel.Skeleton
import proofs.«137660_j37933151158488_1_alg».proof.Proof.Gen.Kernel.Launch
import proofs.«137660_j37933151158488_1_alg».proof.Proof.Gen.Kernel.Points
import proofs.«137660_j37933151158488_1_alg».proof.Proof.Gen.Kernel.Frame
import proofs.«137660_j37933151158488_1_alg».proof.Proof.Gen.KernelIdeal
import proofs.«137660_j37933151158488_1_alg».proof.Proof.Gen.KernelIdeal.Skeleton
import proofs.«137660_j37933151158488_1_alg».proof.Proof.Gen.KernelIdeal.Launch
import proofs.«137660_j37933151158488_1_alg».proof.Proof.Gen.KernelIdeal.Points
import proofs.«137660_j37933151158488_1_alg».proof.Proof.Gen.KernelIdeal.Frame
import proofs.«137660_j37933151158488_1_alg».proof.Proof.Gen.ReferenceIdeal
import proofs.«137660_j37933151158488_1_alg».proof.Proof.Gen.Pre_finite_inputs
import proofs.«137660_j37933151158488_1_alg».proof.Proof.Gen.KernelIdeal.Value
import proofs.«137660_j37933151158488_1_alg».proof.Proof.KernelArrays
import proofs.«137660_j37933151158488_1_alg».proof.Proof.RefRows
import proofs.«137660_j37933151158488_1_alg».proof.Proof.RefRun
import Idealize.ShloMosaic.Adequacy
import Idealize.ShloMosaic.Init

noncomputable section

namespace Cert.Proof

open Idealize.ShloMosaic Idealize.SL.Sem

/-- The kernel as printed runs and leaves its arguments alone: its frame certificate. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- The reference runs and leaves its arguments alone: its run, the three results dropped. -/
theorem frame_referenceIdeal : Cert.frame_ReferenceIdeal := fun m ρ _ =>
  (θ_run Cert.ReferenceIdeal.defs _ _).mono (fun _ h c => (h c).2.2.2) (Cert.ReferenceIdeal.StageRun.run (F := Ideal) m ρ)

/-- The idealization changed no operation. -/
theorem preserves : Cert.preserves_Kernel_KernelIdeal := trivial

/-- From memories agreeing on the arguments, the kernel's three result arrays and the reference's are the same three
    functions of the arguments: the specification's arrays. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (Cert.ReferenceIdeal.StageRun.run (F := Ideal) m' ρ')
  obtain ⟨a0, a1, a2, a3, a4, a5, a6, a7⟩ := hagree c
  obtain ⟨h76, h39, h77, hkept⟩ := h c
  refine ⟨?_, ?_, ?_, hkept⟩
  · rw [h76, Cert.ReferenceIdeal.RefRows.ref_out, a0, a1, a2, a3, a4, a5, a6, a7]
  · rw [h39, Cert.ReferenceIdeal.RefRows.ref_hid, a0, a2, a3, a4, a5]
  · rw [h77, Cert.ReferenceIdeal.RefRows.ref_ctx, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
